-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S32x1 .f32) (main_arg9 : FVec F S1 .f32) (main_v33 : IVec S_ 1) : IVec S_ 1 :=
  let main_v34 : FVec F S32x1 .f32 := Host.absf main_arg8
  let main_cst_12 : FVec F S_ .f32 := constant S_ .f32 0x7F800000#32
  let main_v35 : FVec F S32x1 .f32 := broadcastInDim S32x1 ![] bcast_S_S32x1 main_cst_12
  let main_v36 : IVec S32x1 1 := cmpf .olt main_v34 main_v35
  let main_c_13 : IVec S_ 1 := constantI S_ 1 1#1
  let main_v37 : IVec S_ 1 := (fun x v => Host.reduce IntOp.andi x v reducesTo_S32x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S64 .f32) (main_arg6 : FVec F S64x32 .f32) (main_arg7 : FVec F S32 .f32) (main_arg8 : FVec F S32x1 .f32) (main_arg9 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x32 .f32 := Host.absf main_arg6
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x3200000 32) (main_arg2 : FVec F S128x64 .f32) (main_arg3 : FVec F S64 .f32) (main_arg4 : FVec F S64x64 .f32) (main_arg5 : FVec F S64 .f32) (main_arg6 : FVec F S64x32 .f32) (main_arg7 : FVec F S32 .f32) (main_arg8 : FVec F S32x1 .f32) (main_arg9 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x3200000 : Shape := ⟨2, ![2, 3200000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S5000x128 : Shape := ⟨2, ![5000, 128]⟩
abbrev S5000x64 : Shape := ⟨2, ![5000, 64]⟩
abbrev S3300000x64 : Shape := ⟨2, ![3300000, 64]⟩
abbrev S1x64 : Shape := ⟨2, ![1, 64]⟩
abbrev S100000x32 : Shape := ⟨2, ![100000, 32]⟩
abbrev S5000x32 : Shape := ⟨2, ![5000, 32]⟩
abbrev S3300000x32 : Shape := ⟨2, ![3300000, 32]⟩
abbrev S100000x1 : Shape := ⟨2, ![100000, 1]⟩
abbrev S5000x1 : Shape := ⟨2, ![5000, 1]⟩
abbrev S1x32 : Shape := ⟨2, ![1, 32]⟩
abbrev S1x1 : Shape := ⟨2, ![1, 1]⟩

abbrev nBuf : Space → Nat
  | .hbm => 98
  | .vmem => 23
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x32, .f32⟩
  | .hbm, ⟨7, _⟩ => ⟨S32, .f32⟩
  | .hbm, ⟨8, _⟩ => ⟨S32x1, .f32⟩
  | .hbm, ⟨9, _⟩ => ⟨S1, .f32⟩
  | .hbm, ⟨10, _⟩ => ⟨S1x3200000, .i32⟩
  | .hbm, ⟨11, _⟩ => ⟨S3200000, .i32⟩
  | .hbm, ⟨12, _⟩ => ⟨S1x3200000, .i32⟩
  | .hbm, ⟨13, _⟩ => ⟨S3200000, .i32⟩
  | .hbm, ⟨14, _⟩ => ⟨S100000, .i32⟩
  | .hbm, ⟨15, _⟩ => ⟨S3300000, .i32⟩
  | .hbm, ⟨16, _⟩ => ⟨S3300000, .i32⟩
  | .hbm, ⟨17, _⟩ => ⟨S_, .f32⟩
  | .hbm, ⟨18, _⟩ => ⟨S3300000, .f32⟩
  | .hbm, ⟨19, _⟩ => ⟨S_, .f32⟩
  | .hbm, ⟨20, _⟩ => ⟨S100000, .f32⟩
  | .hbm, ⟨21, _⟩ => ⟨S3300000x1, .i32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S3300000, .i32⟩
  | .hbm, ⟨26, _⟩ => ⟨S3300000, .i1⟩
  | .hbm, ⟨27, _⟩ => ⟨S_, .i32⟩
  | .hbm, ⟨28, _⟩ => ⟨S3300000, .i32⟩
  | .hbm, ⟨29, _⟩ => ⟨S3300000, .i32⟩
  | .hbm, ⟨30, _⟩ => ⟨S3300000, .i32⟩
  | .hbm, ⟨31, _⟩ => ⟨S3300000x1, .i32⟩
  | .hbm, ⟨32, _⟩ => ⟨S3300000, .f32⟩
  | .hbm, ⟨33, _⟩ => ⟨S_, .i32⟩
  | .hbm, ⟨34, _⟩ => ⟨S3300000, .i32⟩
  | .hbm, ⟨35, _⟩ => ⟨S3300000, .i1⟩
  | .hbm, ⟨36, _⟩ => ⟨S_, .i32⟩
  | .hbm, ⟨37, _⟩ => ⟨S3300000, .i32⟩
  | .hbm, ⟨38, _⟩ => ⟨S3300000, .i32⟩
  | .hbm, ⟨39, _⟩ => ⟨S3300000, .i32⟩
  | .hbm, ⟨40, _⟩ => ⟨S3300000x1, .i32⟩
  | .hbm, ⟨41, _⟩ => ⟨S3300000, .f32⟩
  | .hbm, ⟨42, _⟩ => ⟨S3300000, .f32⟩
  | .hbm, ⟨43, _⟩ => ⟨S100000x64, .f32⟩
  | .hbm, ⟨44, _⟩ => ⟨S_, .i32⟩
  | .hbm, ⟨45, _⟩ => ⟨S3300000, .i32⟩
  | .hbm, ⟨46, _⟩ => ⟨S3300000, .i1⟩
  | .hbm, ⟨47, _⟩ => ⟨S_, .i32⟩
  | .hbm, ⟨48, _⟩ => ⟨S3300000, .i32⟩
  | .hbm, ⟨49, _⟩ => ⟨S3300000, .i32⟩
  | .hbm, ⟨50, _⟩ => ⟨S3300000, .i32⟩
  | .hbm, ⟨51, _⟩ => ⟨S3300000x1, .i32⟩
  | .hbm, ⟨52, _⟩ => ⟨S3300000x64, .f32⟩
  | .hbm, ⟨53, _⟩ => ⟨S3300000x1, .f32⟩
  | .hbm, ⟨54, _⟩ => ⟨S3300000x64, .f32⟩
  | .hbm, ⟨55, _⟩ => ⟨S3300000x64, .f32⟩
  | .hbm, ⟨56, _⟩ => ⟨S_, .f32⟩
  | .hbm, ⟨57, _⟩ => ⟨S100000x64, .f32⟩
  | .hbm, ⟨58, _⟩ => ⟨S3300000x1, .i32⟩
  | .hbm, ⟨59, _⟩ => ⟨S100000x64, .f32⟩
  | .hbm, ⟨60, _⟩ => ⟨S100000x64, .f32⟩
  | .hbm, ⟨61, _⟩ => ⟨S_, .i32⟩
  | .hbm, ⟨62, _⟩ => ⟨S3300000, .i32⟩
  | .hbm, ⟨63, _⟩ => ⟨S3300000, .i1⟩
  | .hbm, ⟨64, _⟩ => ⟨S_, .i32⟩
  | .hbm, ⟨65, _⟩ => ⟨S3300000, .i32⟩
  | .hbm, ⟨66, _⟩ => ⟨S3300000, .i32⟩
  | .hbm, ⟨67, _⟩ => ⟨S3300000, .i32⟩
  | .hbm, ⟨68, _⟩ => ⟨S3300000x1, .i32⟩
  | .hbm, ⟨69, _⟩ => ⟨S3300000x64, .f32⟩
  | .hbm, ⟨70, _⟩ => ⟨S3300000x1, .f32⟩
  | .hbm, ⟨71, _⟩ => ⟨S3300000x64, .f32⟩
  | .hbm, ⟨72, _⟩ => ⟨S3300000x64, .f32⟩
  | .hbm, ⟨73, _⟩ => ⟨S_, .f32⟩
  | .hbm, ⟨74, _⟩ => ⟨S100000x64, .f32⟩
  | .hbm, ⟨75, _⟩ => ⟨S3300000x1, .i32⟩
  | .hbm, ⟨76, _⟩ => ⟨S100000x64, .f32⟩
  | .hbm, ⟨77, _⟩ => ⟨S100000x32, .f32⟩
  | .hbm, ⟨78, _⟩ => ⟨S_, .i32⟩
  | .hbm, ⟨79, _⟩ => ⟨S3300000, .i32⟩
  | .hbm, ⟨80, _⟩ => ⟨S3300000, .i1⟩
  | .hbm, ⟨81, _⟩ => ⟨S_, .i32⟩
  | .hbm, ⟨82, _⟩ => ⟨S3300000, .i32⟩
  | .hbm, ⟨83, _⟩ => ⟨S3300000, .i32⟩
  | .hbm, ⟨84, _⟩ => ⟨S3300000, .i32⟩
  | .hbm, ⟨85, _⟩ => ⟨S3300000x1, .i32⟩
  | .hbm, ⟨86, _⟩ => ⟨S3300000x32, .f32⟩
  | .hbm, ⟨87, _⟩ => ⟨S3300000x1, .f32⟩
  | .hbm, ⟨88, _⟩ => ⟨S3300000x32, .f32⟩
  | .hbm, ⟨89, _⟩ => ⟨S3300000x32, .f32⟩
  | .hbm, ⟨90, _⟩ => ⟨S_, .f32⟩
  | .hbm, ⟨91, _⟩ => ⟨S100000x32, .f32⟩
  | .hbm, ⟨92, _⟩ => ⟨S3300000x1, .i32⟩
  | .hbm, ⟨93, _⟩ => ⟨S100000x32, .f32⟩
  | .hbm, ⟨94, _⟩ => ⟨S100000x1, .f32⟩
  | .hbm, ⟨95, _⟩ => ⟨S1x1, .f32⟩
  | .hbm, ⟨96, _⟩ => ⟨S100000x1, .f32⟩
  | .hbm, ⟨97, _⟩ => ⟨S100000x1, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S64, .f32⟩
  | .local _ .vmem, ⟨8, _⟩ => ⟨S64x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64, .f32⟩
  | .local _ .vmem, ⟨14, _⟩ => ⟨S64x32, .f32⟩
  | .local _ .vmem, ⟨15, _⟩ => ⟨S5000x32, .f32⟩
  | .local _ .vmem, ⟨16, _⟩ => ⟨S5000x32, .f32⟩
  | .local _ .vmem, ⟨17, _⟩ => ⟨S5000x32, .f32⟩
  | .local _ .vmem, ⟨18, _⟩ => ⟨S5000x32, .f32⟩
  | .local _ .vmem, ⟨19, _⟩ => ⟨S32, .f32⟩
  | .local _ .vmem, ⟨20, _⟩ => ⟨S32x1, .f32⟩
  | .local _ .vmem, ⟨21, _⟩ => ⟨S5000x1, .f32⟩
  | .local _ .vmem, ⟨22, _⟩ => ⟨S5000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_2 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_4 : Ref sig .tc := ⟨.hbm, 44, rfl⟩
abbrev main_v28 : Ref sig .tc := ⟨.hbm, 45, rfl⟩
abbrev main_v29 : Ref sig .tc := ⟨.hbm, 46, rfl⟩
abbrev main_c_5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_c_7 : Ref sig .tc := ⟨.hbm, 61, rfl⟩
abbrev main_v42 : Ref sig .tc := ⟨.hbm, 62, rfl⟩
abbrev main_v43 : Ref sig .tc := ⟨.hbm, 63, rfl⟩
abbrev main_c_8 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_c_10 : Ref sig .tc := ⟨.hbm, 78, rfl⟩
abbrev main_v56 : Ref sig .tc := ⟨.hbm, 79, rfl⟩
abbrev main_v57 : Ref sig .tc := ⟨.hbm, 80, rfl⟩
abbrev main_c_11 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_12 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg3_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem3_0 : DmaSem sig := 21
abbrev cc3_sem3_1 : DmaSem sig := 22

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x32 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S32x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  shapeCasts_S5000x64_S5000x64 : S5000x64.ShapeCasts S5000x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  inb_S64x32_S64x32_0_0 : ∀ a, (![0, 0] : Fin 2 → Nat) a + S64x32.size a ≤ S64x32.size a
  h_S64x32 : 0 < S64x32.numel
  inb_S5000x32_S5000x32_0_0 : ∀ a, (![0, 0] : Fin 2 → Nat) a + S5000x32.size a ≤ S5000x32.size a
  h_S5000x32 : 0 < S5000x32.numel
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  shapeCasts_S5000x32_S5000x32 : S5000x32.ShapeCasts S5000x32
  inb_S32_S32_0 : ∀ a, (![0] : Fin 1 → Nat) a + S32.size a ≤ S32.size a
  h_S32 : 0 < S32.numel
  shapeCasts_S32_S1x32 : S32.ShapeCasts S1x32
  broadcasts_S1x32_S5000x32 : S1x32.Broadcasts S5000x32
  inb_S32x1_S32x1_0_0 : ∀ a, (![0, 0] : Fin 2 → Nat) a + S32x1.size a ≤ S32x1.size a
  h_S32x1 : 0 < S32x1.numel
  inb_S5000x1_S5000x1_0_0 : ∀ a, (![0, 0] : Fin 2 → Nat) a + S5000x1.size a ≤ S5000x1.size a
  h_S5000x1 : 0 < S5000x1.numel
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x128_S128x64_S5000x64_1_0_0_1_n_n_wf : DotDims.WF S5000x128 S128x64 S5000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S5000x64_S64x64_S5000x64_1_0_0_1_n_n_wf : DotDims.WF S5000x64 S64x64 S5000x64 [1] [0] [0] [1] [] []
  dot_S5000x64_S64x32_S5000x32_1_0_0_1_n_n_wf : DotDims.WF S5000x64 S64x32 S5000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S5000x32_S32x1_S5000x1_1_0_0_1_n_n_wf : DotDims.WF S5000x32 S32x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64.size a ≤ S64.size a
  hwx1_1 : ∀ i : grid1.Coords, EltTy.bits .f32 = 32 ∨ (Rect.block (s := S64) S64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64.size a ≤ S64.size a
  hwx2_1 : ∀ i : grid2.Coords, EltTy.bits .f32 = 32 ∨ (Rect.block (s := S64) S64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x32.size a ≤ S64x32.size a
  hwx2_2 : ∀ i : grid2.Coords, EltTy.bits .f32 = 32 ∨ (Rect.block (s := S64x32) S64x32.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x32.size a ≤ S100000x32.size a
  hwx2_3 : ∀ i : grid2.Coords, EltTy.bits .f32 = 32 ∨ (Rect.block (s := S100000x32) S5000x32.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x32.size a ≤ S100000x32.size a
  hwx3_0 : ∀ i : grid3.Coords, EltTy.bits .f32 = 32 ∨ (Rect.block (s := S100000x32) S5000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S32.size a ≤ S32.size a
  hwx3_1 : ∀ i : grid3.Coords, EltTy.bits .f32 = 32 ∨ (Rect.block (s := S32) S32.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S32x1.size a ≤ S32x1.size a
  hwx3_2 : ∀ i : grid3.Coords, EltTy.bits .f32 = 32 ∨ (Rect.block (s := S32x1) S32x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x1.size a ≤ S100000x1.size a
  hwx3_3 : ∀ i : grid3.Coords, EltTy.bits .f32 = 32 ∨ (Rect.block (s := S100000x1) S5000x1.size (cc3_transform_3 i) (hinb3_3 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S5000x32_S32x1_S5000x1_1_0_0_1_n_n : DotDims S5000x32 S32x1 S5000x1 where
  lhsContracting := [1]
  rhsContracting := [0]
  lhsNonContracting := [0]
  rhsNonContracting := [1]
  lhsBatch := []
  rhsBatch := []
  wf := dot_S5000x32_S32x1_S5000x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v41) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v54) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S64x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v55) S5000x32.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v68) S5000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg8) S32x1.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v69) S5000x1.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S3300000x64 : Shape := ⟨2, ![3300000, 64]⟩
abbrev S1x64 : Shape := ⟨2, ![1, 64]⟩
abbrev S100000x32 : Shape := ⟨2, ![100000, 32]⟩
abbrev S3300000x32 : Shape := ⟨2, ![3300000, 32]⟩
abbrev S1x32 : Shape := ⟨2, ![1, 32]⟩
abbrev S100000x1 : Shape := ⟨2, ![100000, 1]⟩
abbrev S1x1 : Shape := ⟨2, ![1, 1]⟩

abbrev nBuf : Space → Nat
  | .hbm => 116
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x32, .f32⟩
  | .hbm, ⟨7, _⟩ => ⟨S32, .f32⟩
  | .hbm, ⟨8, _⟩ => ⟨S32x1, .f32⟩
  | .hbm, ⟨9, _⟩ => ⟨S1, .f32⟩
  | .hbm, ⟨10, _⟩ => ⟨S100000, .i32⟩
  | .hbm, ⟨11, _⟩ => ⟨S1x3200000, .i32⟩
  | .hbm, ⟨12, _⟩ => ⟨S3200000, .i32⟩
  | .hbm, ⟨13, _⟩ => ⟨S3300000, .i32⟩
  | .hbm, ⟨14, _⟩ => ⟨S1x3200000, .i32⟩
  | .hbm, ⟨15, _⟩ => ⟨S3200000, .i32⟩
  | .hbm, ⟨16, _⟩ => ⟨S3300000, .i32⟩
  | .hbm, ⟨17, _⟩ => ⟨S_, .f32⟩
  | .hbm, ⟨18, _⟩ => ⟨S3300000, .f32⟩
  | .hbm, ⟨19, _⟩ => ⟨S_, .f32⟩
  | .hbm, ⟨20, _⟩ => ⟨S100000, .f32⟩
  | .hbm, ⟨21, _⟩ => ⟨S3300000x1, .i32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S3300000, .i32⟩
  | .hbm, ⟨26, _⟩ => ⟨S3300000, .i1⟩
  | .hbm, ⟨27, _⟩ => ⟨S_, .i32⟩
  | .hbm, ⟨28, _⟩ => ⟨S3300000, .i32⟩
  | .hbm, ⟨29, _⟩ => ⟨S3300000, .i32⟩
  | .hbm, ⟨30, _⟩ => ⟨S3300000, .i32⟩
  | .hbm, ⟨31, _⟩ => ⟨S3300000x1, .i32⟩
  | .hbm, ⟨32, _⟩ => ⟨S3300000, .f32⟩
  | .hbm, ⟨33, _⟩ => ⟨S_, .i32⟩
  | .hbm, ⟨34, _⟩ => ⟨S3300000, .i32⟩
  | .hbm, ⟨35, _⟩ => ⟨S3300000, .i1⟩
  | .hbm, ⟨36, _⟩ => ⟨S_, .i32⟩
  | .hbm, ⟨37, _⟩ => ⟨S3300000, .i32⟩
  | .hbm, ⟨38, _⟩ => ⟨S3300000, .i32⟩
  | .hbm, ⟨39, _⟩ => ⟨S3300000, .i32⟩
  | .hbm, ⟨40, _⟩ => ⟨S3300000x1, .i32⟩
  | .hbm, ⟨41, _⟩ => ⟨S3300000, .f32⟩
  | .hbm, ⟨42, _⟩ => ⟨S3300000, .f32⟩
  | .hbm, ⟨43, _⟩ => ⟨S100000x64, .f32⟩
  | .hbm, ⟨44, _⟩ => ⟨S_, .i32⟩
  | .hbm, ⟨45, _⟩ => ⟨S3300000, .i32⟩
  | .hbm, ⟨46, _⟩ => ⟨S3300000, .i1⟩
  | .hbm, ⟨47, _⟩ => ⟨S_, .i32⟩
  | .hbm, ⟨48, _⟩ => ⟨S3300000, .i32⟩
  | .hbm, ⟨49, _⟩ => ⟨S3300000, .i32⟩
  | .hbm, ⟨50, _⟩ => ⟨S3300000, .i32⟩
  | .hbm, ⟨51, _⟩ => ⟨S3300000x1, .i32⟩
  | .hbm, ⟨52, _⟩ => ⟨S3300000x64, .f32⟩
  | .hbm, ⟨53, _⟩ => ⟨S3300000x1, .f32⟩
  | .hbm, ⟨54, _⟩ => ⟨S3300000x64, .f32⟩
  | .hbm, ⟨55, _⟩ => ⟨S3300000x64, .f32⟩
  | .hbm, ⟨56, _⟩ => ⟨S_, .f32⟩
  | .hbm, ⟨57, _⟩ => ⟨S100000x64, .f32⟩
  | .hbm, ⟨58, _⟩ => ⟨S3300000x1, .i32⟩
  | .hbm, ⟨59, _⟩ => ⟨S100000x64, .f32⟩
  | .hbm, ⟨60, _⟩ => ⟨S1x64, .f32⟩
  | .hbm, ⟨61, _⟩ => ⟨S100000x64, .f32⟩
  | .hbm, ⟨62, _⟩ => ⟨S100000x64, .f32⟩
  | .hbm, ⟨63, _⟩ => ⟨S_, .f32⟩
  | .hbm, ⟨64, _⟩ => ⟨S100000x64, .f32⟩
  | .hbm, ⟨65, _⟩ => ⟨S100000x64, .f32⟩
  | .hbm, ⟨66, _⟩ => ⟨S100000x64, .f32⟩
  | .hbm, ⟨67, _⟩ => ⟨S_, .i32⟩
  | .hbm, ⟨68, _⟩ => ⟨S3300000, .i32⟩
  | .hbm, ⟨69, _⟩ => ⟨S3300000, .i1⟩
  | .hbm, ⟨70, _⟩ => ⟨S_, .i32⟩
  | .hbm, ⟨71, _⟩ => ⟨S3300000, .i32⟩
  | .hbm, ⟨72, _⟩ => ⟨S3300000, .i32⟩
  | .hbm, ⟨73, _⟩ => ⟨S3300000, .i32⟩
  | .hbm, ⟨74, _⟩ => ⟨S3300000x1, .i32⟩
  | .hbm, ⟨75, _⟩ => ⟨S3300000x64, .f32⟩
  | .hbm, ⟨76, _⟩ => ⟨S3300000x1, .f32⟩
  | .hbm, ⟨77, _⟩ => ⟨S3300000x64, .f32⟩
  | .hbm, ⟨78, _⟩ => ⟨S3300000x64, .f32⟩
  | .hbm, ⟨79, _⟩ => ⟨S_, .f32⟩
  | .hbm, ⟨80, _⟩ => ⟨S100000x64, .f32⟩
  | .hbm, ⟨81, _⟩ => ⟨S3300000x1, .i32⟩
  | .hbm, ⟨82, _⟩ => ⟨S100000x64, .f32⟩
  | .hbm, ⟨83, _⟩ => ⟨S1x64, .f32⟩
  | .hbm, ⟨84, _⟩ => ⟨S100000x64, .f32⟩
  | .hbm, ⟨85, _⟩ => ⟨S100000x64, .f32⟩
  | .hbm, ⟨86, _⟩ => ⟨S_, .f32⟩
  | .hbm, ⟨87, _⟩ => ⟨S100000x64, .f32⟩
  | .hbm, ⟨88, _⟩ => ⟨S100000x64, .f32⟩
  | .hbm, ⟨89, _⟩ => ⟨S100000x32, .f32⟩
  | .hbm, ⟨90, _⟩ => ⟨S_, .i32⟩
  | .hbm, ⟨91, _⟩ => ⟨S3300000, .i32⟩
  | .hbm, ⟨92, _⟩ => ⟨S3300000, .i1⟩
  | .hbm, ⟨93, _⟩ => ⟨S_, .i32⟩
  | .hbm, ⟨94, _⟩ => ⟨S3300000, .i32⟩
  | .hbm, ⟨95, _⟩ => ⟨S3300000, .i32⟩
  | .hbm, ⟨96, _⟩ => ⟨S3300000, .i32⟩
  | .hbm, ⟨97, _⟩ => ⟨S3300000x1, .i32⟩
  | .hbm, ⟨98, _⟩ => ⟨S3300000x32, .f32⟩
  | .hbm, ⟨99, _⟩ => ⟨S3300000x1, .f32⟩
  | .hbm, ⟨100, _⟩ => ⟨S3300000x32, .f32⟩
  | .hbm, ⟨101, _⟩ => ⟨S3300000x32, .f32⟩
  | .hbm, ⟨102, _⟩ => ⟨S_, .f32⟩
  | .hbm, ⟨103, _⟩ => ⟨S100000x32, .f32⟩
  | .hbm, ⟨104, _⟩ => ⟨S3300000x1, .i32⟩
  | .hbm, ⟨105, _⟩ => ⟨S100000x32, .f32⟩
  | .hbm, ⟨106, _⟩ => ⟨S1x32, .f32⟩
  | .hbm, ⟨107, _⟩ => ⟨S100000x32, .f32⟩
  | .hbm, ⟨108, _⟩ => ⟨S100000x32, .f32⟩
  | .hbm, ⟨109, _⟩ => ⟨S_, .f32⟩
  | .hbm, ⟨110, _⟩ => ⟨S100000x32, .f32⟩
  | .hbm, ⟨111, _⟩ => ⟨S100000x32, .f32⟩
  | .hbm, ⟨112, _⟩ => ⟨S100000x1, .f32⟩
  | .hbm, ⟨113, _⟩ => ⟨S1x1, .f32⟩
  | .hbm, ⟨114, _⟩ => ⟨S100000x1, .f32⟩
  | .hbm, ⟨115, _⟩ => ⟨S100000x1, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_2 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_4 : Ref sig .tc := ⟨.hbm, 44, rfl⟩
abbrev main_v28 : Ref sig .tc := ⟨.hbm, 45, rfl⟩
abbrev main_v29 : Ref sig .tc := ⟨.hbm, 46, rfl⟩
abbrev main_c_5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_call0_cst : Ref sig .tc := ⟨.hbm, 63, rfl⟩
abbrev main_call0_v0 : Ref sig .tc := ⟨.hbm, 64, rfl⟩
abbrev main_v44 : Ref sig .tc := ⟨.hbm, 65, rfl⟩
abbrev main_v45 : Ref sig .tc := ⟨.hbm, 66, rfl⟩
abbrev main_c_7 : Ref sig .tc := ⟨.hbm, 67, rfl⟩
abbrev main_v46 : Ref sig .tc := ⟨.hbm, 68, rfl⟩
abbrev main_v47 : Ref sig .tc := ⟨.hbm, 69, rfl⟩
abbrev main_c_8 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_9 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_call1_cst : Ref sig .tc := ⟨.hbm, 86, rfl⟩
abbrev main_call1_v0 : Ref sig .tc := ⟨.hbm, 87, rfl⟩
abbrev main_v62 : Ref sig .tc := ⟨.hbm, 88, rfl⟩
abbrev main_v63 : Ref sig .tc := ⟨.hbm, 89, rfl⟩
abbrev main_c_10 : Ref sig .tc := ⟨.hbm, 90, rfl⟩
abbrev main_v64 : Ref sig .tc := ⟨.hbm, 91, rfl⟩
abbrev main_v65 : Ref sig .tc := ⟨.hbm, 92, rfl⟩
abbrev main_c_11 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_cst_12 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_call2_cst : Ref sig .tc := ⟨.hbm, 109, rfl⟩
abbrev main_call2_v0 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x128_S128x64_S100000x64_1_0_0_1_n_n_wf : DotDims.WF S100000x128 S128x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x64_S100000x64_1_0_0_1_n_n_wf : DotDims.WF S100000x64 S64x64 S100000x64 [1] [0] [0] [1] [] []
  dot_S100000x64_S64x32_S100000x32_1_0_0_1_n_n_wf : DotDims.WF S100000x64 S64x32 S100000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S100000x32_S32x1_S100000x1_1_0_0_1_n_n_wf : DotDims.WF S100000x32 S32x1 S100000x1 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S100000x32_S32x1_S100000x1_1_0_0_1_n_n : DotDims S100000x32 S32x1 S100000x1 where
  lhsContracting := [1]
  rhsContracting := [0]
  lhsNonContracting := [0]
  rhsNonContracting := [1]
  lhsBatch := []
  rhsBatch := []
  wf := dot_S100000x32_S32x1_S100000x1_1_0_0_1_n_n_wf

class Facts : Prop extends Facts₀ where

variable [Facts]
-- ==== Proof.Keep.lean ====
/-
  What each of the program's nine segments leaves alone.

  The program is five stretches of host operations around four pallas_calls. A host stretch rewrites exactly the
  buffers its operations name as results; a call rewrites exactly its one output array. So a buffer that is in neither
  list holds after the segment what it held before it, and read back through several segments it holds what the
  earliest of them found: an argument array its launch contents, the edge lists and the edge weights what the first
  stretch computed.
-/
import proofs.«156434_j44865228374583_1_alg».proof.Proof.Gen.KernelIdeal.Frame

set_option maxRecDepth 16384

noncomputable section

open Idealize.ShloMosaic Idealize.ShloMosaic.TcCoe Idealize.SL.Sem

namespace Cert.KernelIdeal.Fold

open Cert.KernelIdeal Cert.KernelIdeal.Gen

variable {F : FTy → Type} [FloatOps F]
variable (m : (ℓ : Loc nD τ sig) → Buf (Elt F) ℓ) (ρ : Dev nD → PrngReg)

/-! ## What the host stretches write -/

/-- The buffers the host stretch before the first call writes, one per operation. -/
abbrev wr0 : List (Ref sig .tc) := [main_v0, main_v1, main_v2, main_v3, main_v4, main_v5, main_v6, main_cst, main_v7, main_cst_0, main_v8, main_v9, main_v10, main_v11, main_c, main_v12, main_v13, main_c_1, main_v14, main_v15, main_v16, main_v17, main_v18, main_c_2, main_v19, main_v20, main_c_3, main_v21, main_v22, main_v23, main_v24, main_v25, main_v26]
theorem wr0_sub : (hostOps0 : List (HloOp τ sig (Elt F))).Forall fun op => op.writes ⊆ (wr0.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The buffers the host stretch between the first and second calls writes, one per operation. -/
abbrev wr1 : List (Ref sig .tc) := [main_c_4, main_v28, main_v29, main_c_5, main_v30, main_v31, main_v32, main_v33, main_v34, main_v35, main_v36, main_v37, main_cst_6, main_v38, main_v39, main_v40]
theorem wr1_sub : (hostOps1 : List (HloOp τ sig (Elt F))).Forall fun op => op.writes ⊆ (wr1.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The buffers the host stretch between the second and third calls writes, one per operation. -/
abbrev wr2 : List (Ref sig .tc) := [main_c_7, main_v42, main_v43, main_c_8, main_v44, main_v45, main_v46, main_v47, main_v48, main_v49, main_v50, main_v51, main_cst_9, main_v52, main_v53, main_v54]
theorem wr2_sub : (hostOps2 : List (HloOp τ sig (Elt F))).Forall fun op => op.writes ⊆ (wr2.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The buffers the host stretch between the third and fourth calls writes, one per operation. -/
abbrev wr3 : List (Ref sig .tc) := [main_c_10, main_v56, main_v57, main_c_11, main_v58, main_v59, main_v60, main_v61, main_v62, main_v63, main_v64, main_v65, main_cst_12, main_v66, main_v67, main_v68]
theorem wr3_sub : (hostOps3 : List (HloOp τ sig (Elt F))).Forall fun op => op.writes ⊆ (wr3.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The buffers the host stretch after the fourth call writes, one per operation. -/
abbrev wr4 : List (Ref sig .tc) := [main_v70, main_v71, main_v72]
theorem wr4_sub : (hostOps4 : List (HloOp τ sig (Elt F))).Forall fun op => op.writes ⊆ (wr4.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-! ## One segment -/

theorem keep1 (c : Dev nD) (r : Ref sig .tc) (h : r ∉ wr0) : W1 m ρ c (Proc.devRef .tc r) = m ((c : Thread nD τ).loc r) :=
  StableHlo.after_of_writes_sub hostOps0 _ wr0_sub h
theorem keep2 (c : Dev nD) (r : Ref sig .tc) (h : ∀ w, Pipeline.arrRef spec0 w ≠ r) :
    W2 m ρ c (Proc.devRef .tc r) = W1 m ρ c (Proc.devRef .tc r) := W2_of_ne m ρ c r h
theorem keep3 (c : Dev nD) (r : Ref sig .tc) (h : r ∉ wr1) : W3 m ρ c (Proc.devRef .tc r) = W2 m ρ c (Proc.devRef .tc r) :=
  StableHlo.after_of_writes_sub hostOps1 _ wr1_sub h
theorem keep4 (c : Dev nD) (r : Ref sig .tc) (h : ∀ w, Pipeline.arrRef spec1 w ≠ r) :
    W4 m ρ c (Proc.devRef .tc r) = W3 m ρ c (Proc.devRef .tc r) := W4_of_ne m ρ c r h
theorem keep5 (c : Dev nD) (r : Ref sig .tc) (h : r ∉ wr2) : W5 m ρ c (Proc.devRef .tc r) = W4 m ρ c (Proc.devRef .tc r) :=
  StableHlo.after_of_writes_sub hostOps2 _ wr2_sub h
theorem keep6 (c : Dev nD) (r : Ref sig .tc) (h : ∀ w, Pipeline.arrRef spec2 w ≠ r) :
    W6 m ρ c (Proc.devRef .tc r) = W5 m ρ c (Proc.devRef .tc r) := W6_of_ne m ρ c r h
theorem keep7 (c : Dev nD) (r : Ref sig .tc) (h : r ∉ wr3) : W7 m ρ c (Proc.devRef .tc r) = W6 m ρ c (Proc.devRef .tc r) :=
  StableHlo.after_of_writes_sub hostOps3 _ wr3_sub h
theorem keep8 (c : Dev nD) (r : Ref sig .tc) (h : ∀ w, Pipeline.arrRef spec3 w ≠ r) :
    W8 m ρ c (Proc.devRef .tc r) = W7 m ρ c (Proc.devRef .tc r) := W8_of_ne m ρ c r h

/-! ## Several segments: back to the first call's entry, or to the launch -/

/-- A buffer no segment up to the second call's entry touches holds there what the first call's entry held. -/
theorem back3 (c : Dev nD) (r : Ref sig .tc) (h2 : ∀ w, Pipeline.arrRef spec0 w ≠ r) (h3 : r ∉ wr1) :
    W3 m ρ c (Proc.devRef .tc r) = W1 m ρ c (Proc.devRef .tc r) :=
  (keep3 m ρ c r h3).trans (keep2 m ρ c r h2)
theorem back4 (c : Dev nD) (r : Ref sig .tc) (h2 : ∀ w, Pipeline.arrRef spec0 w ≠ r) (h3 : r ∉ wr1)
    (h4 : ∀ w, Pipeline.arrRef spec1 w ≠ r) : W4 m ρ c (Proc.devRef .tc r) = W1 m ρ c (Proc.devRef .tc r) :=
  (keep4 m ρ c r h4).trans (back3 m ρ c r h2 h3)
theorem back5 (c : Dev nD) (r : Ref sig .tc) (h2 : ∀ w, Pipeline.arrRef spec0 w ≠ r) (h3 : r ∉ wr1)
    (h4 : ∀ w, Pipeline.arrRef spec1 w ≠ r) (h5 : r ∉ wr2) : W5 m ρ c (Proc.devRef .tc r) = W1 m ρ c (Proc.devRef .tc r) :=
  (keep5 m ρ c r h5).trans (back4 m ρ c r h2 h3 h4)
theorem back6 (c : Dev nD) (r : Ref sig .tc) (h2 : ∀ w, Pipeline.arrRef spec0 w ≠ r) (h3 : r ∉ wr1)
    (h4 : ∀ w, Pipeline.arrRef spec1 w ≠ r) (h5 : r ∉ wr2) (h6 : ∀ w, Pipeline.arrRef spec2 w ≠ r) :
    W6 m ρ c (Proc.devRef .tc r) = W1 m ρ c (Proc.devRef .tc r) :=
  (keep6 m ρ c r h6).trans (back5 m ρ c r h2 h3 h4 h5)
theorem back7 (c : Dev nD) (r : Ref sig .tc) (h2 : ∀ w, Pipeline.arrRef spec0 w ≠ r) (h3 : r ∉ wr1)
    (h4 : ∀ w, Pipeline.arrRef spec1 w ≠ r) (h5 : r ∉ wr2) (h6 : ∀ w, Pipeline.arrRef spec2 w ≠ r) (h7 : r ∉ wr3) :
    W7 m ρ c (Proc.devRef .tc r) = W1 m ρ c (Proc.devRef .tc r) :=
  (keep7 m ρ c r h7).trans (back6 m ρ c r h2 h3 h4 h5 h6)
theorem back8 (c : Dev nD) (r : Ref sig .tc) (h2 : ∀ w, Pipeline.arrRef spec0 w ≠ r) (h3 : r ∉ wr1)
    (h4 : ∀ w, Pipeline.arrRef spec1 w ≠ r) (h5 : r ∉ wr2) (h6 : ∀ w, Pipeline.arrRef spec2 w ≠ r) (h7 : r ∉ wr3)
    (h8 : ∀ w, Pipeline.arrRef spec3 w ≠ r) : W8 m ρ c (Proc.devRef .tc r) = W1 m ρ c (Proc.devRef .tc r) :=
  (keep8 m ρ c r h8).trans (back7 m ρ c r h2 h3 h4 h5 h6 h7)

end Cert.KernelIdeal.Fold

end
-- ==== Proof.LibPlainMatmul.lean ====
/-
  A plain matrix product read at an index, at the ideal values.

  For dimension numbers `d` over shapes [M, K] × [K, N] → [M, N] that contract the left operand's axis 1 with the right
  operand's axis 0 and keep the left rows and the right columns — stated here as the four facts about the record's index
  maps that say so, so that the lemma serves any record, whatever its generated name — the product accumulated into the
  zero splat, read at `(p, o)`, is `∑ k, A (p, k) · B (k, o)`: the library's sum over the record's contraction index set,
  re-indexed by that set's one coordinate.
-/
import Idealize.ShloMosaic.PureOps.Ideal.Laws
import Idealize.ShloMosaic.Lib.ValueIdx

noncomputable section

open scoped BigOperators
open Idealize.ShloMosaic Idealize.ShloMosaic.ValueIdx

namespace Cert.LibPlainMatmul

/-- `FloatOps.matmul d prec A B 0 (p, o) = ∑ k : Fin K, A (p, k) * B (k, o)` for a record `d` with one contracted axis of
    extent `K` whose left index at `(i, q)` is `(i 0, q)` and whose right index is `(q, i 1)` (`hl0`, `hl1`, `hr0`, `hr1`:
    for a generated record the first and last are a `dif_neg` / `dif_pos` on its literal axis lists, the middle two are
    `DotDims.lhsIdx_val_of_single` / `rhsIdx_val_of_single`). -/
theorem matmul_zero_apply {M K N : ℕ} {φ₁ φ₂ : FTy}
    (d : DotDims ⟨2, ![M, K]⟩ ⟨2, ![K, N]⟩ ⟨2, ![M, N]⟩) (prec : Option ContractPrecision)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (A : FVec Ideal ⟨2, ![M, K]⟩ φ₁) (B : FVec Ideal ⟨2, ![K, N]⟩ φ₂) (p : Fin M) (o : Fin N) :
    FloatOps.matmul d prec A B (constant (F := Ideal) ⟨2, ![M, N]⟩ .f32 0x00000000#32) (ix2 p o)
      = ∑ k : Fin K, A (ix2 p k) * B (ix2 k o) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p o) ((contrEquiv1 d K hr hs).symm k) = ix2 p k := funext fun a => Fin.ext (by
    match a with
    | ⟨0, _⟩ => exact hl0 _ _
    | ⟨1, _⟩ => exact (hl1 _ _).trans hk)
  have er : d.rhsIdx (ix2 p o) ((contrEquiv1 d K hr hs).symm k) = ix2 k o := funext fun a => Fin.ext (by
    match a with
    | ⟨0, _⟩ => exact (hr0 _ _).trans hk
    | ⟨1, _⟩ => exact hr1 _ _)
  rw [el, er]

end Cert.LibPlainMatmul

end
-- ==== Proof.Dense.lean ====
/-
  The two functions every layer of this network is made of, as arrays read index by index over the extended reals.

  `lin a w` is the row-by-column product of an [M, K] array with a [K, N] array: entry (p, o) is the sum over k of
  a (p, k) · w (k, o). `act a b` adds a length-K bias to every row of an [M, K] array and clamps below at zero:
  entry (p, k) is max (a (p, k) + b k) 0, the zero being the all-zero f32 word's value, kept as that word's value so
  that both programs' zeros are the same term.

  A graph-convolution layer of the network is lin (act agg b) w, where agg is the neighbourhood sum of the previous
  layer; the first layer is lin x w. Nothing here needs the entries to be finite: the two programs compute these same
  sums, in the same order of k, so no algebraic law beyond re-indexing a finite sum is used.
-/
import Idealize.ShloMosaic.PureOps.Ideal.Laws
import Idealize.ShloMosaic.Lib.ValueIdx

noncomputable section

open scoped BigOperators
open Idealize.ShloMosaic Idealize.ShloMosaic.ValueIdx

namespace Cert.Dense

/-- Rows of `a` against columns of `w`. -/
def lin {M K N : ℕ} (a : FVec Ideal ⟨2, ![M, K]⟩ .f32) (w : FVec Ideal ⟨2, ![K, N]⟩ .f32) : FVec Ideal ⟨2, ![M, N]⟩ .f32 :=
  fun i => ∑ k : Fin K, a (ix2 ⟨(i 0).val, idx2_lt0 i⟩ k) * w (ix2 k ⟨(i 1).val, idx2_lt1 i⟩)

theorem lin_apply {M K N : ℕ} (a : FVec Ideal ⟨2, ![M, K]⟩ .f32) (w : FVec Ideal ⟨2, ![K, N]⟩ .f32) (p : Fin M) (o : Fin N) :
    lin a w (ix2 p o) = ∑ k : Fin K, a (ix2 p k) * w (ix2 k o) := rfl

/-- A bias added along the rows, then the clamp at zero. -/
def act {M K : ℕ} (a : FVec Ideal ⟨2, ![M, K]⟩ .f32) (b : FVec Ideal ⟨1, ![K]⟩ .f32) : FVec Ideal ⟨2, ![M, K]⟩ .f32 :=
  fun i => max (a i + b (ix1 ⟨(i 1).val, idx2_lt1 i⟩)) (Ideal.ofBits .f32 0x00000000#32)

theorem act_apply {M K : ℕ} (a : FVec Ideal ⟨2, ![M, K]⟩ .f32) (b : FVec Ideal ⟨1, ![K]⟩ .f32) (p : Fin M) (k : Fin K) :
    act a b (ix2 p k) = max (a (ix2 p k) + b (ix1 k)) (Ideal.ofBits .f32 0x00000000#32) := rfl

end Cert.Dense

end
-- ==== Proof.Region0.lean ====
/-
  The first pallas_call: 20 grid points, each taking rows 5000 t … 5000 t + 4999 of the [100000, 128] node features and
  the whole [128, 64] weight, and writing the same rows of the [100000, 64] result.

  One point's body contracts its rows with the weight into a zero accumulator, both operands first narrowed to bf16,
  which is the identity on the extended reals. So row r = 5000 t + p of the result, at column o, is the sum over k of
  x (r, k) · w (k, o): entry (r, o) of lin x w. The 20 row bands are disjoint and together are every row, so after the
  last write-back the whole array is that function of the two arrays as the call found them.
-/
import proofs.«156434_j44865228374583_1_alg».proof.Proof.Gen.KernelIdeal.Frame
import proofs.«156434_j44865228374583_1_alg».proof.Proof.LibPlainMatmul
import proofs.«156434_j44865228374583_1_alg».proof.Proof.Dense
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

open scoped BigOperators
open Idealize.ShloMosaic Idealize.ShloMosaic.TcCoe Idealize.ShloMosaic.ValueIdx Idealize.SL.Sem
open Idealize.ShloMosaic.Pipeline (Dat Cfg Window)

namespace Cert.KernelIdeal.Region0

open Cert.KernelIdeal Cert.KernelIdeal.Gen Cert.Dense

/-! ## The contraction's index maps -/

theorem lhs0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem rhs0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem rhs1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-! ## One point's body at an entry of its block -/

/-- The body's stored value at (p, o) of the block: row p of the loaded rows against column o of the weight. -/
theorem pay_apply (x0 : Vec Ideal S5000x128 .f32) (x1 : Vec Ideal S128x64 .f32) (p : Fin 5000) (o : Fin 64) :
    k0_pay1 (F := Ideal) x0 x1 (ix2 p o) = ∑ k : Fin 128, x0 (ix2 p k) * x1 (ix2 k o) := by
  unfold k0_pay1
  exact Cert.LibPlainMatmul.matmul_zero_apply dot_S5000x128_S128x64_S5000x64_1_0_0_1_n_n none rfl rfl lhs0 lhs1 rhs0 rhs1 _ _ p o

/-! ## From the blocks to the array -/

variable (V : (c : Dev nD) → (b : Ref sig .tc) → Buf (Elt Ideal) ((c : Thread nD τ).loc b))

theorem hz2 : (![0, 0] : Fin 2 → Nat) = fun _ => 0 := funext fun a => by fin_cases a <;> rfl

/-- Where each window's block sits at grid point t: the row band t of the features and of the result, the one block
    of the weight. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- One point's stored block is the band of lin A w that starts at row 5000 T, when its two loaded blocks are that
    band of A and all of w. -/
theorem point_eq (x0 : Vec Ideal S5000x128 .f32) (x1 : Vec Ideal S128x64 .f32)
    (A : FVec Ideal S100000x128 .f32) (w : FVec Ideal S128x64 .f32) (T : ℕ)
    (h0 : ∀ (p : Fin 5000) (k : Fin 128) (r : Fin 100000), r.val = T * 5000 + p.val → x0 (ix2 p k) = A (ix2 r k))
    (h1 : ∀ (k : Fin 128) (o : Fin 64), x1 (ix2 k o) = w (ix2 k o))
    (p : Fin 5000) (o : Fin 64) (r : Fin 100000) (hr : r.val = T * 5000 + p.val) :
    k0_pay1 (F := Ideal) x0 x1 (ix2 p o) = lin A w (ix2 r o) := by
  rw [pay_apply, lin_apply]
  refine Finset.sum_congr rfl fun k _ => ?_
  rw [h0 p k r hr, h1 k o]

/-- What point t writes back is block t of lin x w of the two arrays as the call finds them. -/
theorem flushed_eq (c : Dev nD) (t : Fin cfg0.N) :
    (dat0 V c).flushed 2 t
      = ((cfg0.win 2).blk t).view.read (Elt Ideal) (lin (V c main_arg0) (V c main_arg2)) := by
  show (cfg0.win 2).cut (grid0.coords t) ((dat0 V c).after 2 t) = _
  rw [after0_2]
  unfold out0_2
  rw [View.canon_unit_zero hz2]
  simp only [View.ld_unit_zero (S := S5000x128) hz2, View.ld_unit_zero (S := S128x64) hz2]
  obtain ⟨e00, e01, e10, e11, e20, e21⟩ := idx_facts t
  funext j
  obtain ⟨p, o, rfl⟩ : ∃ (p : Fin 5000) (o : Fin 64), j = ix2 p o := ⟨j 0, j 1, eq_ix2 j⟩
  have ht : t.val < 20 := t.isLt
  have hp : p.val < 5000 := p.isLt
  show k0_pay1 (F := Ideal) (iblk0 V c 0 t) (iblk0 V c 1 t) (ix2 p o)
      = lin (V c main_arg0) (V c main_arg2) (((cfg0.win 2).blk t).view.emb (ix2 p o))
  have hout : ((cfg0.win 2).blk t).view.emb (ix2 p o) = ix2 (⟨t.val * 5000 + p.val, by omega⟩ : Fin 100000) o := by
    funext a; apply Fin.ext
    match a with
    | ⟨0, _⟩ => show win0_2.index t (0 : Fin 2) * 5000 + 1 * p.val = t.val * 5000 + p.val; rw [e20]; omega
    | ⟨1, _⟩ => show win0_2.index t (1 : Fin 2) * 64 + 1 * o.val = o.val; rw [e21]; omega
  rw [hout]
  refine point_eq (iblk0 V c 0 t) (iblk0 V c 1 t) (V c main_arg0) (V c main_arg2) t.val ?_ ?_ p o _ rfl
  · intro p k r hr
    have h : ((cfg0.win 0).blk t).view.emb (ix2 p k) = ix2 r k := by
      funext a; apply Fin.ext
      match a with
      | ⟨0, _⟩ => show win0_0.index t (0 : Fin 2) * 5000 + 1 * p.val = r.val; rw [e00, hr]; omega
      | ⟨1, _⟩ => show win0_0.index t (1 : Fin 2) * 128 + 1 * k.val = k.val; rw [e01]; omega
    show V c main_arg0 (((cfg0.win 0).blk t).view.emb (ix2 p k)) = V c main_arg0 (ix2 r k)
    rw [h]
  · intro k o
    have h : ((cfg0.win 1).blk t).view.emb (ix2 k o) = ix2 k o := by
      funext a; apply Fin.ext
      match a with
      | ⟨0, _⟩ => show win0_1.index t (0 : Fin 2) * 128 + 1 * k.val = k.val; rw [e10]; omega
      | ⟨1, _⟩ => show win0_1.index t (1 : Fin 2) * 64 + 1 * o.val = o.val; rw [e11]; omega
    show V c main_arg2 (((cfg0.win 1).blk t).view.emb (ix2 k o)) = V c main_arg2 (ix2 k o)
    rw [h]

/-- An index of the result array is in point t's block iff each coordinate is in the block's range on its axis. -/
theorem mem_blk (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v27).slice (win0_2.rect t)).set ↔ _
  rw [View.set_slice_whole, Rect.mem_set_unit]
  exact Iff.rfl

/-- Every row lies in the band of the point row / 5000: the 20 bands are the whole array. -/
theorem cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 20 := N_0
  let t : Fin cfg0.N := ⟨(i 0).val / 5000, by rw [hN]; omega⟩
  obtain ⟨-, -, -, -, e20, e21⟩ := idx_facts t
  have htv : t.val = (i 0).val / 5000 := rfl
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; rw [e20, htv]; omega
  | ⟨1, _⟩ => show win0_2.index t (1 : Fin 2) * 64 ≤ (i 1).val ∧ (i 1).val < win0_2.index t (1 : Fin 2) * 64 + 64; rw [e21]; omega

/-- The result array after the call: lin x w of the arrays the call was entered with. -/
theorem arr (c : Dev nD) :
    (dat0 V c).arrAt 2 cfg0.N = lin (V c main_arg0) (V c main_arg2) :=
  (dat0 V c).arrAt_eq_of_cover 2 _ (fun t _ => flushed_eq V c t) cover

end Cert.KernelIdeal.Region0

end
-- ==== Proof.Region1.lean ====
/-
  The second pallas_call (the first of the three fused layers): 20 grid points, each taking rows 5000 t … 5000 t + 4999
  of the [100000, 64] neighbourhood sum, the whole length-64 bias and the whole [64, 64] weight, and writing the same
  rows of the [100000, 64] result.

  One point's body is max (rows + bias, 0) contracted with the weight into a zero accumulator; the narrowing of both
  matrix operands to bf16 is the identity on the extended reals. So row r = 5000 t + p of the result, at column o, is
  the sum over k of max (agg (r, k) + b k) 0 · w (k, o): entry (r, o) of lin (act agg b) w. The 20 blocks are disjoint
  row bands that together are every row, so after the last write-back the whole array is that function of the three
  arrays as the call found them.
-/
import proofs.«156434_j44865228374583_1_alg».proof.Proof.Gen.KernelIdeal.Frame
import proofs.«156434_j44865228374583_1_alg».proof.Proof.LibPlainMatmul
import proofs.«156434_j44865228374583_1_alg».proof.Proof.Dense
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

open scoped BigOperators
open Idealize.ShloMosaic Idealize.ShloMosaic.TcCoe Idealize.ShloMosaic.ValueIdx Idealize.SL.Sem
open Idealize.ShloMosaic.Pipeline (Dat Cfg Window)

namespace Cert.KernelIdeal.Region1

open Cert.KernelIdeal Cert.KernelIdeal.Gen Cert.Dense

/-! ## The contraction's index maps -/

theorem lhs0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-! ## One point's body at an entry of its block -/

/-- The bias, cast to one row and repeated down the block, read at (p, k) is the bias at k. -/
theorem bias_apply (x1 : Vec Ideal S64 .f32) (p : Fin 5000) (k : Fin 64) :
    broadcastTo S5000x64 (shapeCast S1x64 x1 shapeCasts_S64_S1x64) broadcasts_S1x64_S5000x64 (ix2 p k) = x1 (ix1 k) :=
  (broadcastTo_1b_ab_apply (shapeCast S1x64 x1 shapeCasts_S64_S1x64) broadcasts_S1x64_S5000x64 p k).trans
    (shapeCast_a_1a_apply x1 shapeCasts_S64_S1x64 (0 : Fin 1) k)

/-- The body's stored value at (p, o) of the block: the clamped, biased row p against column o of the weight. -/
theorem pay_apply (x0 : Vec Ideal S5000x64 .f32) (x1 : Vec Ideal S64 .f32) (x2 : Vec Ideal S64x64 .f32) (p : Fin 5000) (o : Fin 64) :
    k1_pay1 (F := Ideal) x0 x1 x2 (ix2 p o)
      = ∑ k : Fin 64, max (x0 (ix2 p k) + x1 (ix1 k)) (Ideal.ofBits .f32 0x00000000#32) * x2 (ix2 k o) := by
  unfold k1_pay1
  refine (Cert.LibPlainMatmul.matmul_zero_apply dot_S5000x64_S64x64_S5000x64_1_0_0_1_n_n none rfl rfl lhs0 lhs1 rhs0 rhs1 _ _ p o).trans ?_
  refine Finset.sum_congr rfl fun k _ => ?_
  refine congrArg₂ (· * ·) ?_ rfl
  show max (shapeCast S5000x64 x0 shapeCasts_S5000x64_S5000x64 (ix2 p k)
        + broadcastTo S5000x64 (shapeCast S1x64 x1 shapeCasts_S64_S1x64) broadcasts_S1x64_S5000x64 (ix2 p k))
      (Ideal.ofBits .f32 0x00000000#32) = _
  rw [bias_apply x1 p k, shapeCast_self]

/-! ## From the blocks to the array -/

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- Where each window's block sits at grid point t: the row band t of the two row-tiled arrays, the one block of the
    bias and of the weight. -/
theorem idx_facts : ∀ t : Fin cfg1.N,
    win1_0.index t (0 : Fin 2) = t.val ∧ win1_0.index t (1 : Fin 2) = 0
    ∧ win1_1.index t (0 : Fin 1) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- One point's stored block is the band of lin (act A b) w that starts at row 5000 T, when its three loaded blocks
    are that band of A, all of b and all of w. -/
theorem point_eq (x0 : Vec Ideal S5000x64 .f32) (x1 : Vec Ideal S64 .f32) (x2 : Vec Ideal S64x64 .f32)
    (A : FVec Ideal S100000x64 .f32) (b : FVec Ideal S64 .f32) (w : FVec Ideal S64x64 .f32) (T : ℕ)
    (h0 : ∀ (p : Fin 5000) (k : Fin 64) (r : Fin 100000), r.val = T * 5000 + p.val → x0 (ix2 p k) = A (ix2 r k))
    (h1 : ∀ k : Fin 64, x1 (ix1 k) = b (ix1 k))
    (h2 : ∀ (k : Fin 64) (o : Fin 64), x2 (ix2 k o) = w (ix2 k o))
    (p : Fin 5000) (o : Fin 64) (r : Fin 100000) (hr : r.val = T * 5000 + p.val) :
    k1_pay1 (F := Ideal) x0 x1 x2 (ix2 p o) = lin (act A b) w (ix2 r o) := by
  rw [pay_apply, lin_apply]
  refine Finset.sum_congr rfl fun k _ => ?_
  rw [act_apply, h0 p k r hr, h1 k, h2 k o]

/-- What point t writes back is block t of lin (act agg b) w of the three arrays as the call finds them. -/
theorem flushed_eq (c : Dev nD) (t : Fin cfg1.N) :
    (dat1 V c).flushed 3 t
      = ((cfg1.win 3).blk t).view.read (Elt Ideal) (lin (act (V c main_v40) (V c main_arg3)) (V c main_arg4)) := by
  show (cfg1.win 3).cut (grid1.coords t) ((dat1 V c).after 3 t) = _
  rw [after1_3]
  unfold out1_3
  rw [View.canon_unit_zero hz2]
  simp only [View.ld_unit_zero (S := S5000x64) hz2, View.ld_unit_zero (S := S64) hz1, View.ld_unit_zero (S := S64x64) hz2]
  obtain ⟨e00, e01, e10, e20, e21, e30, e31⟩ := idx_facts t
  funext j
  obtain ⟨p, o, rfl⟩ : ∃ (p : Fin 5000) (o : Fin 64), j = ix2 p o := ⟨j 0, j 1, eq_ix2 j⟩
  have ht : t.val < 20 := t.isLt
  have hp : p.val < 5000 := p.isLt
  show k1_pay1 (F := Ideal) (iblk1 V c 0 t) (iblk1 V c 1 t) (iblk1 V c 2 t) (ix2 p o)
      = lin (act (V c main_v40) (V c main_arg3)) (V c main_arg4) (((cfg1.win 3).blk t).view.emb (ix2 p o))
  have hout : ((cfg1.win 3).blk t).view.emb (ix2 p o) = ix2 (⟨t.val * 5000 + p.val, by omega⟩ : Fin 100000) o := by
    funext a; apply Fin.ext
    match a with
    | ⟨0, _⟩ => show win1_3.index t (0 : Fin 2) * 5000 + 1 * p.val = t.val * 5000 + p.val; rw [e30]; omega
    | ⟨1, _⟩ => show win1_3.index t (1 : Fin 2) * 64 + 1 * o.val = o.val; rw [e31]; omega
  rw [hout]
  refine point_eq (iblk1 V c 0 t) (iblk1 V c 1 t) (iblk1 V c 2 t) (V c main_v40) (V c main_arg3) (V c main_arg4) t.val ?_ ?_ ?_ p o _ rfl
  · intro p k r hr
    have h : ((cfg1.win 0).blk t).view.emb (ix2 p k) = ix2 r k := by
      funext a; apply Fin.ext
      match a with
      | ⟨0, _⟩ => show win1_0.index t (0 : Fin 2) * 5000 + 1 * p.val = r.val; rw [e00, hr]; omega
      | ⟨1, _⟩ => show win1_0.index t (1 : Fin 2) * 64 + 1 * k.val = k.val; rw [e01]; omega
    show V c main_v40 (((cfg1.win 0).blk t).view.emb (ix2 p k)) = V c main_v40 (ix2 r k)
    rw [h]
  · intro k
    have h : ((cfg1.win 1).blk t).view.emb (ix1 k) = ix1 k := by
      funext a; apply Fin.ext
      match a with
      | ⟨0, _⟩ => show win1_1.index t (0 : Fin 1) * 64 + 1 * k.val = k.val; rw [e10]; omega
    show V c main_arg3 (((cfg1.win 1).blk t).view.emb (ix1 k)) = V c main_arg3 (ix1 k)
    rw [h]
  · intro k o
    have h : ((cfg1.win 2).blk t).view.emb (ix2 k o) = ix2 k o := by
      funext a; apply Fin.ext
      match a with
      | ⟨0, _⟩ => show win1_2.index t (0 : Fin 2) * 64 + 1 * k.val = k.val; rw [e20]; omega
      | ⟨1, _⟩ => show win1_2.index t (1 : Fin 2) * 64 + 1 * o.val = o.val; rw [e21]; omega
    show V c main_arg4 (((cfg1.win 2).blk t).view.emb (ix2 k o)) = V c main_arg4 (ix2 k o)
    rw [h]

/-- An index of the result array is in point t's block iff each coordinate is in the block's range on its axis. -/
theorem mem_blk (t : Fin cfg1.N) (i : S100000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v41).slice (win1_3.rect t)).set ↔ _
  rw [View.set_slice_whole, Rect.mem_set_unit]
  exact Iff.rfl

/-- Every row lies in the band of the point row / 5000: the 20 bands are the whole array. -/
theorem cover (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  have hN : cfg1.N = 20 := N_1
  let t : Fin cfg1.N := ⟨(i 0).val / 5000, by rw [hN]; omega⟩
  obtain ⟨-, -, -, -, -, e30, e31⟩ := idx_facts t
  have htv : t.val = (i 0).val / 5000 := rfl
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; rw [e30, htv]; omega
  | ⟨1, _⟩ => show win1_3.index t (1 : Fin 2) * 64 ≤ (i 1).val ∧ (i 1).val < win1_3.index t (1 : Fin 2) * 64 + 64; rw [e31]; omega

/-- The result array after the call: lin (act agg b) w of the arrays the call was entered with. -/
theorem arr (c : Dev nD) :
    (dat1 V c).arrAt 3 cfg1.N = lin (act (V c main_v40) (V c main_arg3)) (V c main_arg4) :=
  (dat1 V c).arrAt_eq_of_cover 3 _ (fun t _ => flushed_eq V c t) cover

end Cert.KernelIdeal.Region1

end
-- ==== Proof.Region2.lean ====
/-
  The third pallas_call (the second of the three fused layers): 20 grid points, each taking rows 5000 t … 5000 t + 4999
  of the [100000, 64] neighbourhood sum, the whole length-64 bias and the whole [64, 32] weight, and writing the same
  rows of the [100000, 32] result.

  One point's body is max (rows + bias, 0) contracted with the weight into a zero accumulator; the narrowing of both
  matrix operands to bf16 is the identity on the extended reals. So row r = 5000 t + p of the result, at column o, is
  the sum over k of max (agg (r, k) + b k) 0 · w (k, o): entry (r, o) of lin (act agg b) w. The 20 blocks are disjoint
  row bands that together are every row, so after the last write-back the whole array is that function of the three
  arrays as the call found them.
-/
import proofs.«156434_j44865228374583_1_alg».proof.Proof.Gen.KernelIdeal.Frame
import proofs.«156434_j44865228374583_1_alg».proof.Proof.LibPlainMatmul
import proofs.«156434_j44865228374583_1_alg».proof.Proof.Dense
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

open scoped BigOperators
open Idealize.ShloMosaic Idealize.ShloMosaic.TcCoe Idealize.ShloMosaic.ValueIdx Idealize.SL.Sem
open Idealize.ShloMosaic.Pipeline (Dat Cfg Window)

namespace Cert.KernelIdeal.Region2

open Cert.KernelIdeal Cert.KernelIdeal.Gen Cert.Dense

/-! ## The contraction's index maps -/

theorem lhs0 (i : S5000x32.Idx) (q : dot_S5000x64_S64x32_S5000x32_1_0_0_1_n_n.contr.Idx) :
    (dot_S5000x64_S64x32_S5000x32_1_0_0_1_n_n.lhsIdx i q 0).val = (i 0).val := by
  unfold DotDims.lhsIdx
  rw [dif_neg (show ¬(0 : Fin S5000x64.rank) ∈ dot_S5000x64_S64x32_S5000x32_1_0_0_1_n_n.lhsBatch by decide), dif_pos (show (0 : Fin S5000x64.rank) ∈ dot_S5000x64_S64x32_S5000x32_1_0_0_1_n_n.lhsNonContracting by decide)]
  rfl
theorem lhs1 (i : S5000x32.Idx) (q : dot_S5000x64_S64x32_S5000x32_1_0_0_1_n_n.contr.Idx) :
    (dot_S5000x64_S64x32_S5000x32_1_0_0_1_n_n.lhsIdx i q 1).val = (q ⟨0, by decide⟩).val :=
  dot_S5000x64_S64x32_S5000x32_1_0_0_1_n_n.lhsIdx_val_of_single rfl i q
theorem rhs0 (i : S5000x32.Idx) (q : dot_S5000x64_S64x32_S5000x32_1_0_0_1_n_n.contr.Idx) :
    (dot_S5000x64_S64x32_S5000x32_1_0_0_1_n_n.rhsIdx i q 0).val = (q ⟨0, by decide⟩).val :=
  dot_S5000x64_S64x32_S5000x32_1_0_0_1_n_n.rhsIdx_val_of_single rfl i q
theorem rhs1 (i : S5000x32.Idx) (q : dot_S5000x64_S64x32_S5000x32_1_0_0_1_n_n.contr.Idx) :
    (dot_S5000x64_S64x32_S5000x32_1_0_0_1_n_n.rhsIdx i q 1).val = (i 1).val := by
  unfold DotDims.rhsIdx
  rw [dif_neg (show ¬(1 : Fin S64x32.rank) ∈ dot_S5000x64_S64x32_S5000x32_1_0_0_1_n_n.rhsBatch by decide), dif_pos (show (1 : Fin S64x32.rank) ∈ dot_S5000x64_S64x32_S5000x32_1_0_0_1_n_n.rhsNonContracting by decide)]
  rfl

/-! ## One point's body at an entry of its block -/

/-- The bias, cast to one row and repeated down the block, read at (p, k) is the bias at k. -/
theorem bias_apply (x1 : Vec Ideal S64 .f32) (p : Fin 5000) (k : Fin 64) :
    broadcastTo S5000x64 (shapeCast S1x64 x1 shapeCasts_S64_S1x64) broadcasts_S1x64_S5000x64 (ix2 p k) = x1 (ix1 k) :=
  (broadcastTo_1b_ab_apply (shapeCast S1x64 x1 shapeCasts_S64_S1x64) broadcasts_S1x64_S5000x64 p k).trans
    (shapeCast_a_1a_apply x1 shapeCasts_S64_S1x64 (0 : Fin 1) k)

/-- The body's stored value at (p, o) of the block: the clamped, biased row p against column o of the weight. -/
theorem pay_apply (x0 : Vec Ideal S5000x64 .f32) (x1 : Vec Ideal S64 .f32) (x2 : Vec Ideal S64x32 .f32) (p : Fin 5000) (o : Fin 32) :
    k2_pay1 (F := Ideal) x0 x1 x2 (ix2 p o)
      = ∑ k : Fin 64, max (x0 (ix2 p k) + x1 (ix1 k)) (Ideal.ofBits .f32 0x00000000#32) * x2 (ix2 k o) := by
  unfold k2_pay1
  refine (Cert.LibPlainMatmul.matmul_zero_apply dot_S5000x64_S64x32_S5000x32_1_0_0_1_n_n none rfl rfl lhs0 lhs1 rhs0 rhs1 _ _ p o).trans ?_
  refine Finset.sum_congr rfl fun k _ => ?_
  refine congrArg₂ (· * ·) ?_ rfl
  show max (shapeCast S5000x64 x0 shapeCasts_S5000x64_S5000x64 (ix2 p k)
        + broadcastTo S5000x64 (shapeCast S1x64 x1 shapeCasts_S64_S1x64) broadcasts_S1x64_S5000x64 (ix2 p k))
      (Ideal.ofBits .f32 0x00000000#32) = _
  rw [bias_apply x1 p k, shapeCast_self]

/-! ## From the blocks to the array -/

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- Where each window's block sits at grid point t: the row band t of the two row-tiled arrays, the one block of the
    bias and of the weight. -/
theorem idx_facts : ∀ t : Fin cfg2.N,
    win2_0.index t (0 : Fin 2) = t.val ∧ win2_0.index t (1 : Fin 2) = 0
    ∧ win2_1.index t (0 : Fin 1) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- One point's stored block is the band of lin (act A b) w that starts at row 5000 T, when its three loaded blocks
    are that band of A, all of b and all of w. -/
theorem point_eq (x0 : Vec Ideal S5000x64 .f32) (x1 : Vec Ideal S64 .f32) (x2 : Vec Ideal S64x32 .f32)
    (A : FVec Ideal S100000x64 .f32) (b : FVec Ideal S64 .f32) (w : FVec Ideal S64x32 .f32) (T : ℕ)
    (h0 : ∀ (p : Fin 5000) (k : Fin 64) (r : Fin 100000), r.val = T * 5000 + p.val → x0 (ix2 p k) = A (ix2 r k))
    (h1 : ∀ k : Fin 64, x1 (ix1 k) = b (ix1 k))
    (h2 : ∀ (k : Fin 64) (o : Fin 32), x2 (ix2 k o) = w (ix2 k o))
    (p : Fin 5000) (o : Fin 32) (r : Fin 100000) (hr : r.val = T * 5000 + p.val) :
    k2_pay1 (F := Ideal) x0 x1 x2 (ix2 p o) = lin (act A b) w (ix2 r o) := by
  rw [pay_apply, lin_apply]
  refine Finset.sum_congr rfl fun k _ => ?_
  rw [act_apply, h0 p k r hr, h1 k, h2 k o]

/-- What point t writes back is block t of lin (act agg b) w of the three arrays as the call finds them. -/
theorem flushed_eq (c : Dev nD) (t : Fin cfg2.N) :
    (dat2 V c).flushed 3 t
      = ((cfg2.win 3).blk t).view.read (Elt Ideal) (lin (act (V c main_v54) (V c main_arg5)) (V c main_arg6)) := by
  show (cfg2.win 3).cut (grid2.coords t) ((dat2 V c).after 3 t) = _
  rw [after2_3]
  unfold out2_3
  rw [View.canon_unit_zero hz2]
  simp only [View.ld_unit_zero (S := S5000x64) hz2, View.ld_unit_zero (S := S64) hz1, View.ld_unit_zero (S := S64x32) hz2]
  obtain ⟨e00, e01, e10, e20, e21, e30, e31⟩ := idx_facts t
  funext j
  obtain ⟨p, o, rfl⟩ : ∃ (p : Fin 5000) (o : Fin 32), j = ix2 p o := ⟨j 0, j 1, eq_ix2 j⟩
  have ht : t.val < 20 := t.isLt
  have hp : p.val < 5000 := p.isLt
  show k2_pay1 (F := Ideal) (iblk2 V c 0 t) (iblk2 V c 1 t) (iblk2 V c 2 t) (ix2 p o)
      = lin (act (V c main_v54) (V c main_arg5)) (V c main_arg6) (((cfg2.win 3).blk t).view.emb (ix2 p o))
  have hout : ((cfg2.win 3).blk t).view.emb (ix2 p o) = ix2 (⟨t.val * 5000 + p.val, by omega⟩ : Fin 100000) o := by
    funext a; apply Fin.ext
    match a with
    | ⟨0, _⟩ => show win2_3.index t (0 : Fin 2) * 5000 + 1 * p.val = t.val * 5000 + p.val; rw [e30]; omega
    | ⟨1, _⟩ => show win2_3.index t (1 : Fin 2) * 32 + 1 * o.val = o.val; rw [e31]; omega
  rw [hout]
  refine point_eq (iblk2 V c 0 t) (iblk2 V c 1 t) (iblk2 V c 2 t) (V c main_v54) (V c main_arg5) (V c main_arg6) t.val ?_ ?_ ?_ p o _ rfl
  · intro p k r hr
    have h : ((cfg2.win 0).blk t).view.emb (ix2 p k) = ix2 r k := by
      funext a; apply Fin.ext
      match a with
      | ⟨0, _⟩ => show win2_0.index t (0 : Fin 2) * 5000 + 1 * p.val = r.val; rw [e00, hr]; omega
      | ⟨1, _⟩ => show win2_0.index t (1 : Fin 2) * 64 + 1 * k.val = k.val; rw [e01]; omega
    show V c main_v54 (((cfg2.win 0).blk t).view.emb (ix2 p k)) = V c main_v54 (ix2 r k)
    rw [h]
  · intro k
    have h : ((cfg2.win 1).blk t).view.emb (ix1 k) = ix1 k := by
      funext a; apply Fin.ext
      match a with
      | ⟨0, _⟩ => show win2_1.index t (0 : Fin 1) * 64 + 1 * k.val = k.val; rw [e10]; omega
    show V c main_arg5 (((cfg2.win 1).blk t).view.emb (ix1 k)) = V c main_arg5 (ix1 k)
    rw [h]
  · intro k o
    have h : ((cfg2.win 2).blk t).view.emb (ix2 k o) = ix2 k o := by
      funext a; apply Fin.ext
      match a with
      | ⟨0, _⟩ => show win2_2.index t (0 : Fin 2) * 64 + 1 * k.val = k.val; rw [e20]; omega
      | ⟨1, _⟩ => show win2_2.index t (1 : Fin 2) * 32 + 1 * o.val = o.val; rw [e21]; omega
    show V c main_arg6 (((cfg2.win 2).blk t).view.emb (ix2 k o)) = V c main_arg6 (ix2 k o)
    rw [h]

/-- An index of the result array is in point t's block iff each coordinate is in the block's range on its axis. -/
theorem mem_blk (t : Fin cfg2.N) (i : S100000x32.Idx) :
    i ∈ ((cfg2.win 3).blk t).view.set ↔ ∀ a : Fin 2, win2_3.index t a * S5000x32.size a ≤ (i a).val ∧ (i a).val < win2_3.index t a * S5000x32.size a + S5000x32.size a := by
  show i ∈ ((View.whole main_v55).slice (win2_3.rect t)).set ↔ _
  rw [View.set_slice_whole, Rect.mem_set_unit]
  exact Iff.rfl

/-- Every row lies in the band of the point row / 5000: the 20 bands are the whole array. -/
theorem cover (i : S100000x32.Idx) :
    ∃ t : Fin cfg2.N, (cfg2.win 3).flush t = true ∧ i ∈ ((cfg2.win 3).blk t).view.set := by
  have hi0 : (i 0).val < 100000 := (i 0).isLt
  have hi1 : (i 1).val < 32 := (i 1).isLt
  have hN : cfg2.N = 20 := N_2
  let t : Fin cfg2.N := ⟨(i 0).val / 5000, by rw [hN]; omega⟩
  obtain ⟨-, -, -, -, -, e30, e31⟩ := idx_facts t
  have htv : t.val = (i 0).val / 5000 := rfl
  refine ⟨t, flush2_3 t, ?_⟩
  rw [mem_blk]
  intro a
  match a with
  | ⟨0, _⟩ => show win2_3.index t (0 : Fin 2) * 5000 ≤ (i 0).val ∧ (i 0).val < win2_3.index t (0 : Fin 2) * 5000 + 5000; rw [e30, htv]; omega
  | ⟨1, _⟩ => show win2_3.index t (1 : Fin 2) * 32 ≤ (i 1).val ∧ (i 1).val < win2_3.index t (1 : Fin 2) * 32 + 32; rw [e31]; omega

/-- The result array after the call: lin (act agg b) w of the arrays the call was entered with. -/
theorem arr (c : Dev nD) :
    (dat2 V c).arrAt 3 cfg2.N = lin (act (V c main_v54) (V c main_arg5)) (V c main_arg6) :=
  (dat2 V c).arrAt_eq_of_cover 3 _ (fun t _ => flushed_eq V c t) cover

end Cert.KernelIdeal.Region2

end
-- ==== Proof.Region3.lean ====
/-
  The fourth pallas_call (the third of the three fused layers): 20 grid points, each taking rows 5000 t … 5000 t + 4999
  of the [100000, 32] neighbourhood sum, the whole length-32 bias and the whole [32, 1] weight, and writing the same
  rows of the [100000, 1] result.

  One point's body is max (rows + bias, 0) contracted with the weight into a zero accumulator; the narrowing of both
  matrix operands to bf16 is the identity on the extended reals. So row r = 5000 t + p of the result, at column o, is
  the sum over k of max (agg (r, k) + b k) 0 · w (k, o): entry (r, o) of lin (act agg b) w. The 20 blocks are disjoint
  row bands that together are every row, so after the last write-back the whole array is that function of the three
  arrays as the call found them.
-/
import proofs.«156434_j44865228374583_1_alg».proof.Proof.Gen.KernelIdeal.Frame
import proofs.«156434_j44865228374583_1_alg».proof.Proof.LibPlainMatmul
import proofs.«156434_j44865228374583_1_alg».proof.Proof.Dense
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

open scoped BigOperators
open Idealize.ShloMosaic Idealize.ShloMosaic.TcCoe Idealize.ShloMosaic.ValueIdx Idealize.SL.Sem
open Idealize.ShloMosaic.Pipeline (Dat Cfg Window)

namespace Cert.KernelIdeal.Region3

open Cert.KernelIdeal Cert.KernelIdeal.Gen Cert.Dense

/-! ## The contraction's index maps -/

theorem lhs0 (i : S5000x1.Idx) (q : dot_S5000x32_S32x1_S5000x1_1_0_0_1_n_n.contr.Idx) :
    (dot_S5000x32_S32x1_S5000x1_1_0_0_1_n_n.lhsIdx i q 0).val = (i 0).val := by
  unfold DotDims.lhsIdx
  rw [dif_neg (show ¬(0 : Fin S5000x32.rank) ∈ dot_S5000x32_S32x1_S5000x1_1_0_0_1_n_n.lhsBatch by decide), dif_pos (show (0 : Fin S5000x32.rank) ∈ dot_S5000x32_S32x1_S5000x1_1_0_0_1_n_n.lhsNonContracting by decide)]
  rfl
theorem lhs1 (i : S5000x1.Idx) (q : dot_S5000x32_S32x1_S5000x1_1_0_0_1_n_n.contr.Idx) :
    (dot_S5000x32_S32x1_S5000x1_1_0_0_1_n_n.lhsIdx i q 1).val = (q ⟨0, by decide⟩).val :=
  dot_S5000x32_S32x1_S5000x1_1_0_0_1_n_n.lhsIdx_val_of_single rfl i q
theorem rhs0 (i : S5000x1.Idx) (q : dot_S5000x32_S32x1_S5000x1_1_0_0_1_n_n.contr.Idx) :
    (dot_S5000x32_S32x1_S5000x1_1_0_0_1_n_n.rhsIdx i q 0).val = (q ⟨0, by decide⟩).val :=
  dot_S5000x32_S32x1_S5000x1_1_0_0_1_n_n.rhsIdx_val_of_single rfl i q
theorem rhs1 (i : S5000x1.Idx) (q : dot_S5000x32_S32x1_S5000x1_1_0_0_1_n_n.contr.Idx) :
    (dot_S5000x32_S32x1_S5000x1_1_0_0_1_n_n.rhsIdx i q 1).val = (i 1).val := by
  unfold DotDims.rhsIdx
  rw [dif_neg (show ¬(1 : Fin S32x1.rank) ∈ dot_S5000x32_S32x1_S5000x1_1_0_0_1_n_n.rhsBatch by decide), dif_pos (show (1 : Fin S32x1.rank) ∈ dot_S5000x32_S32x1_S5000x1_1_0_0_1_n_n.rhsNonContracting by decide)]
  rfl

/-! ## One point's body at an entry of its block -/

/-- The bias, cast to one row and repeated down the block, read at (p, k) is the bias at k. -/
theorem bias_apply (x1 : Vec Ideal S32 .f32) (p : Fin 5000) (k : Fin 32) :
    broadcastTo S5000x32 (shapeCast S1x32 x1 shapeCasts_S32_S1x32) broadcasts_S1x32_S5000x32 (ix2 p k) = x1 (ix1 k) :=
  (broadcastTo_1b_ab_apply (shapeCast S1x32 x1 shapeCasts_S32_S1x32) broadcasts_S1x32_S5000x32 p k).trans
    (shapeCast_a_1a_apply x1 shapeCasts_S32_S1x32 (0 : Fin 1) k)

/-- The body's stored value at (p, o) of the block: the clamped, biased row p against column o of the weight. -/
theorem pay_apply (x0 : Vec Ideal S5000x32 .f32) (x1 : Vec Ideal S32 .f32) (x2 : Vec Ideal S32x1 .f32) (p : Fin 5000) (o : Fin 1) :
    k3_pay1 (F := Ideal) x0 x1 x2 (ix2 p o)
      = ∑ k : Fin 32, max (x0 (ix2 p k) + x1 (ix1 k)) (Ideal.ofBits .f32 0x00000000#32) * x2 (ix2 k o) := by
  unfold k3_pay1
  refine (Cert.LibPlainMatmul.matmul_zero_apply dot_S5000x32_S32x1_S5000x1_1_0_0_1_n_n none rfl rfl lhs0 lhs1 rhs0 rhs1 _ _ p o).trans ?_
  refine Finset.sum_congr rfl fun k _ => ?_
  refine congrArg₂ (· * ·) ?_ rfl
  show max (shapeCast S5000x32 x0 shapeCasts_S5000x32_S5000x32 (ix2 p k)
        + broadcastTo S5000x32 (shapeCast S1x32 x1 shapeCasts_S32_S1x32) broadcasts_S1x32_S5000x32 (ix2 p k))
      (Ideal.ofBits .f32 0x00000000#32) = _
  rw [bias_apply x1 p k, shapeCast_self]

/-! ## From the blocks to the array -/

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- Where each window's block sits at grid point t: the row band t of the two row-tiled arrays, the one block of the
    bias and of the weight. -/
theorem idx_facts : ∀ t : Fin cfg3.N,
    win3_0.index t (0 : Fin 2) = t.val ∧ win3_0.index t (1 : Fin 2) = 0
    ∧ win3_1.index t (0 : Fin 1) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- One point's stored block is the band of lin (act A b) w that starts at row 5000 T, when its three loaded blocks
    are that band of A, all of b and all of w. -/
theorem point_eq (x0 : Vec Ideal S5000x32 .f32) (x1 : Vec Ideal S32 .f32) (x2 : Vec Ideal S32x1 .f32)
    (A : FVec Ideal S100000x32 .f32) (b : FVec Ideal S32 .f32) (w : FVec Ideal S32x1 .f32) (T : ℕ)
    (h0 : ∀ (p : Fin 5000) (k : Fin 32) (r : Fin 100000), r.val = T * 5000 + p.val → x0 (ix2 p k) = A (ix2 r k))
    (h1 : ∀ k : Fin 32, x1 (ix1 k) = b (ix1 k))
    (h2 : ∀ (k : Fin 32) (o : Fin 1), x2 (ix2 k o) = w (ix2 k o))
    (p : Fin 5000) (o : Fin 1) (r : Fin 100000) (hr : r.val = T * 5000 + p.val) :
    k3_pay1 (F := Ideal) x0 x1 x2 (ix2 p o) = lin (act A b) w (ix2 r o) := by
  rw [pay_apply, lin_apply]
  refine Finset.sum_congr rfl fun k _ => ?_
  rw [act_apply, h0 p k r hr, h1 k, h2 k o]

/-- What point t writes back is block t of lin (act agg b) w of the three arrays as the call finds them. -/
theorem flushed_eq (c : Dev nD) (t : Fin cfg3.N) :
    (dat3 V c).flushed 3 t
      = ((cfg3.win 3).blk t).view.read (Elt Ideal) (lin (act (V c main_v68) (V c main_arg7)) (V c main_arg8)) := by
  show (cfg3.win 3).cut (grid3.coords t) ((dat3 V c).after 3 t) = _
  rw [after3_3]
  unfold out3_3
  rw [View.canon_unit_zero hz2]
  simp only [View.ld_unit_zero (S := S5000x32) hz2, View.ld_unit_zero (S := S32) hz1, View.ld_unit_zero (S := S32x1) hz2]
  obtain ⟨e00, e01, e10, e20, e21, e30, e31⟩ := idx_facts t
  funext j
  obtain ⟨p, o, rfl⟩ : ∃ (p : Fin 5000) (o : Fin 1), j = ix2 p o := ⟨j 0, j 1, eq_ix2 j⟩
  have ht : t.val < 20 := t.isLt
  have hp : p.val < 5000 := p.isLt
  show k3_pay1 (F := Ideal) (iblk3 V c 0 t) (iblk3 V c 1 t) (iblk3 V c 2 t) (ix2 p o)
      = lin (act (V c main_v68) (V c main_arg7)) (V c main_arg8) (((cfg3.win 3).blk t).view.emb (ix2 p o))
  have hout : ((cfg3.win 3).blk t).view.emb (ix2 p o) = ix2 (⟨t.val * 5000 + p.val, by omega⟩ : Fin 100000) o := by
    funext a; apply Fin.ext
    match a with
    | ⟨0, _⟩ => show win3_3.index t (0 : Fin 2) * 5000 + 1 * p.val = t.val * 5000 + p.val; rw [e30]; omega
    | ⟨1, _⟩ => show win3_3.index t (1 : Fin 2) * 1 + 1 * o.val = o.val; rw [e31]; omega
  rw [hout]
  refine point_eq (iblk3 V c 0 t) (iblk3 V c 1 t) (iblk3 V c 2 t) (V c main_v68) (V c main_arg7) (V c main_arg8) t.val ?_ ?_ ?_ p o _ rfl
  · intro p k r hr
    have h : ((cfg3.win 0).blk t).view.emb (ix2 p k) = ix2 r k := by
      funext a; apply Fin.ext
      match a with
      | ⟨0, _⟩ => show win3_0.index t (0 : Fin 2) * 5000 + 1 * p.val = r.val; rw [e00, hr]; omega
      | ⟨1, _⟩ => show win3_0.index t (1 : Fin 2) * 32 + 1 * k.val = k.val; rw [e01]; omega
    show V c main_v68 (((cfg3.win 0).blk t).view.emb (ix2 p k)) = V c main_v68 (ix2 r k)
    rw [h]
  · intro k
    have h : ((cfg3.win 1).blk t).view.emb (ix1 k) = ix1 k := by
      funext a; apply Fin.ext
      match a with
      | ⟨0, _⟩ => show win3_1.index t (0 : Fin 1) * 32 + 1 * k.val = k.val; rw [e10]; omega
    show V c main_arg7 (((cfg3.win 1).blk t).view.emb (ix1 k)) = V c main_arg7 (ix1 k)
    rw [h]
  · intro k o
    have h : ((cfg3.win 2).blk t).view.emb (ix2 k o) = ix2 k o := by
      funext a; apply Fin.ext
      match a with
      | ⟨0, _⟩ => show win3_2.index t (0 : Fin 2) * 32 + 1 * k.val = k.val; rw [e20]; omega
      | ⟨1, _⟩ => show win3_2.index t (1 : Fin 2) * 1 + 1 * o.val = o.val; rw [e21]; omega
    show V c main_arg8 (((cfg3.win 2).blk t).view.emb (ix2 k o)) = V c main_arg8 (ix2 k o)
    rw [h]

/-- An index of the result array is in point t's block iff each coordinate is in the block's range on its axis. -/
theorem mem_blk (t : Fin cfg3.N) (i : S100000x1.Idx) :
    i ∈ ((cfg3.win 3).blk t).view.set ↔ ∀ a : Fin 2, win3_3.index t a * S5000x1.size a ≤ (i a).val ∧ (i a).val < win3_3.index t a * S5000x1.size a + S5000x1.size a := by
  show i ∈ ((View.whole main_v69).slice (win3_3.rect t)).set ↔ _
  rw [View.set_slice_whole, Rect.mem_set_unit]
  exact Iff.rfl

/-- Every row lies in the band of the point row / 5000: the 20 bands are the whole array. -/
theorem cover (i : S100000x1.Idx) :
    ∃ t : Fin cfg3.N, (cfg3.win 3).flush t = true ∧ i ∈ ((cfg3.win 3).blk t).view.set := by
  have hi0 : (i 0).val < 100000 := (i 0).isLt
  have hi1 : (i 1).val < 1 := (i 1).isLt
  have hN : cfg3.N = 20 := N_3
  let t : Fin cfg3.N := ⟨(i 0).val / 5000, by rw [hN]; omega⟩
  obtain ⟨-, -, -, -, -, e30, e31⟩ := idx_facts t
  have htv : t.val = (i 0).val / 5000 := rfl
  refine ⟨t, flush3_3 t, ?_⟩
  rw [mem_blk]
  intro a
  match a with
  | ⟨0, _⟩ => show win3_3.index t (0 : Fin 2) * 5000 ≤ (i 0).val ∧ (i 0).val < win3_3.index t (0 : Fin 2) * 5000 + 5000; rw [e30, htv]; omega
  | ⟨1, _⟩ => show win3_3.index t (1 : Fin 2) * 1 ≤ (i 1).val ∧ (i 1).val < win3_3.index t (1 : Fin 2) * 1 + 1; rw [e31]; omega

/-- The result array after the call: lin (act agg b) w of the arrays the call was entered with. -/
theorem arr (c : Dev nD) :
    (dat3 V c).arrAt 3 cfg3.N = lin (act (V c main_v68) (V c main_arg7)) (V c main_arg8) :=
  (dat3 V c).arrAt_eq_of_cover 3 _ (fun t _ => flushed_eq V c t) cover

end Cert.KernelIdeal.Region3

end
-- ==== Proof.RefLayer0.lean ====
/-
  The reference's first dense step read as lin.

  The reference applies the host's dot_general to the whole [100000, 128] feature array and the [128, 64] weight. Entry
  (p, o) of that product is the sum over the contracted coordinate k of the features at (p, k) times the weight at
  (k, o): lin x w at (p, o).
-/
import proofs.«156434_j44865228374583_1_alg».proof.Proof.Gen.ReferenceIdeal.Read
import proofs.«156434_j44865228374583_1_alg».proof.Proof.Dense
import Idealize.ShloMosaic.Lib.ValueIdx
import Idealize.ShloMosaic.PureOps.Ideal.Laws

noncomputable section

open scoped BigOperators
open Idealize.ShloMosaic Idealize.ShloMosaic.TcCoe Idealize.ShloMosaic.ValueIdx Idealize.SL.Sem

namespace Cert.ReferenceIdeal.Layer0

open Cert.ReferenceIdeal Cert.ReferenceIdeal.Read Cert.Dense

/-- The host's product of the node features with the first weight is lin x w. -/
theorem layer (x0 : (⟨S100000x128, .f32⟩ : BufTy).Contents (Elt Ideal)) (x2 : (⟨S128x64, .f32⟩ : BufTy).Contents (Elt Ideal)) :
    val_main_v27 (F := Ideal) x0 x2 = lin (M := 100000) (K := 128) (N := 64) x0 x2 := by
  funext i
  obtain ⟨p, o, rfl⟩ : ∃ (p : Fin 100000) (o : Fin 64), i = ix2 p o := ⟨i 0, i 1, eq_ix2 i⟩
  rw [val_main_v27_apply, lin_apply]
  refine Finset.sum_congr rfl fun k _ => ?_
  have el : lidx_main_v27 (ix2 p o) k = ix2 p k := funext fun a => Fin.ext (by match a with | ⟨0, _⟩ => rfl | ⟨1, _⟩ => rfl)
  have er : ridx_main_v27 (ix2 p o) k = ix2 k o := funext fun a => Fin.ext (by match a with | ⟨0, _⟩ => rfl | ⟨1, _⟩ => rfl)
  rw [el, er]

end Cert.ReferenceIdeal.Layer0

end
-- ==== Proof.RefLayer1.lean ====
/-
  The reference's first fused step read as lin and act.

  The reference adds the length-64 bias, repeated down the rows, to the [100000, 64] neighbourhood sum, takes the maximum
  with the zero repeated everywhere, and applies the host's dot_general with the [64, 64] weight. Entry (p, k) of the
  clamped sum is act agg b at (p, k); entry (p, o) of the product is the sum over k of that times the weight at (k, o):
  lin (act agg b) w at (p, o). The neighbourhood sum agg (a gather, a scaling and a scatter-add over the edge list)
  stays the one function of the arguments the reference's own stages name it; it is never opened here.
-/
import proofs.«156434_j44865228374583_1_alg».proof.Proof.Gen.ReferenceIdeal.Read
import proofs.«156434_j44865228374583_1_alg».proof.Proof.Dense
import Idealize.ShloMosaic.Lib.ValueIdx
import Idealize.ShloMosaic.PureOps.Ideal.Laws

noncomputable section

open scoped BigOperators
open Idealize.ShloMosaic Idealize.ShloMosaic.TcCoe Idealize.ShloMosaic.ValueIdx Idealize.SL.Sem

namespace Cert.ReferenceIdeal.Layer1

open Cert.ReferenceIdeal Cert.ReferenceIdeal.Read Cert.Dense

/-- The host's product of the clamped, biased neighbourhood sum with the weight is lin (act agg b) w. -/
theorem layer
    (x0 : (⟨S100000x128, .f32⟩ : BufTy).Contents (Elt Ideal)) (x1 : (⟨S2x3200000, .i32⟩ : BufTy).Contents (Elt Ideal)) (x2 : (⟨S128x64, .f32⟩ : BufTy).Contents (Elt Ideal))
    (x3 : (⟨S64, .f32⟩ : BufTy).Contents (Elt Ideal)) (x4 : (⟨S64x64, .f32⟩ : BufTy).Contents (Elt Ideal)) :
    val_main_v45 (F := Ideal) x0 x1 x2 x3 x4
      = lin (M := 100000) (K := 64) (N := 64) (act (M := 100000) (K := 64) (val_main_v40 (F := Ideal) x0 x1 x2) x3) x4 := by
  funext i
  obtain ⟨p, o, rfl⟩ : ∃ (p : Fin 100000) (o : Fin 64), i = ix2 p o := ⟨i 0, i 1, eq_ix2 i⟩
  rw [val_main_v45_apply, lin_apply]
  refine Finset.sum_congr rfl fun k _ => ?_
  have el : lidx_main_v45 (ix2 p o) k = ix2 p k := funext fun a => Fin.ext (by match a with | ⟨0, _⟩ => rfl | ⟨1, _⟩ => rfl)
  have er : ridx_main_v45 (ix2 p o) k = ix2 k o := funext fun a => Fin.ext (by match a with | ⟨0, _⟩ => rfl | ⟨1, _⟩ => rfl)
  have eb : idx_main_v41 (idx_main_v42 (ix2 p k)) = ix1 k := funext fun a => Fin.ext (by match a with | ⟨0, _⟩ => rfl)
  rw [el, er, val_main_v44_apply, val_main_v43_apply, val_main_v42_apply, val_main_v41_apply, eb,
    val_main_call0_v0_apply, val_main_call0_cst_apply, act_apply]
  rfl

end Cert.ReferenceIdeal.Layer1

end
-- ==== Proof.RefLayer2.lean ====
/-
  The reference's second fused step read as lin and act.

  The reference adds the length-64 bias, repeated down the rows, to the [100000, 64] neighbourhood sum, takes the maximum
  with the zero repeated everywhere, and applies the host's dot_general with the [64, 32] weight. Entry (p, k) of the
  clamped sum is act agg b at (p, k); entry (p, o) of the product is the sum over k of that times the weight at (k, o):
  lin (act agg b) w at (p, o). The neighbourhood sum agg (a gather, a scaling and a scatter-add over the edge list)
  stays the one function of the arguments the reference's own stages name it; it is never opened here.
-/
import proofs.«156434_j44865228374583_1_alg».proof.Proof.Gen.ReferenceIdeal.Read
import proofs.«156434_j44865228374583_1_alg».proof.Proof.Dense
import Idealize.ShloMosaic.Lib.ValueIdx
import Idealize.ShloMosaic.PureOps.Ideal.Laws

noncomputable section

open scoped BigOperators
open Idealize.ShloMosaic Idealize.ShloMosaic.TcCoe Idealize.ShloMosaic.ValueIdx Idealize.SL.Sem

namespace Cert.ReferenceIdeal.Layer2

open Cert.ReferenceIdeal Cert.ReferenceIdeal.Read Cert.Dense

/-- The host's product of the clamped, biased neighbourhood sum with the weight is lin (act agg b) w. -/
theorem layer
    (x0 : (⟨S100000x128, .f32⟩ : BufTy).Contents (Elt Ideal)) (x1 : (⟨S2x3200000, .i32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal))
    (x5 : (⟨S64, .f32⟩ : BufTy).Contents (Elt Ideal)) (x6 : (⟨S64x32, .f32⟩ : BufTy).Contents (Elt Ideal)) :
    val_main_v63 (F := Ideal) x0 x1 x2 x3 x4 x5 x6
      = lin (M := 100000) (K := 64) (N := 32) (act (M := 100000) (K := 64) (val_main_v58 (F := Ideal) x0 x1 x2 x3 x4) x5) x6 := by
  funext i
  obtain ⟨p, o, rfl⟩ : ∃ (p : Fin 100000) (o : Fin 32), i = ix2 p o := ⟨i 0, i 1, eq_ix2 i⟩
  rw [val_main_v63_apply, lin_apply]
  refine Finset.sum_congr rfl fun k _ => ?_
  have el : lidx_main_v63 (ix2 p o) k = ix2 p k := funext fun a => Fin.ext (by match a with | ⟨0, _⟩ => rfl | ⟨1, _⟩ => rfl)
  have er : ridx_main_v63 (ix2 p o) k = ix2 k o := funext fun a => Fin.ext (by match a with | ⟨0, _⟩ => rfl | ⟨1, _⟩ => rfl)
  have eb : idx_main_v59 (idx_main_v60 (ix2 p k)) = ix1 k := funext fun a => Fin.ext (by match a with | ⟨0, _⟩ => rfl)
  rw [el, er, val_main_v62_apply, val_main_v61_apply, val_main_v60_apply, val_main_v59_apply, eb,
    val_main_call1_v0_apply, val_main_call1_cst_apply, act_apply]
  rfl

end Cert.ReferenceIdeal.Layer2

end
-- ==== Proof.RefLayer3.lean ====
/-
  The reference's third fused step read as lin and act.

  The reference adds the length-32 bias, repeated down the rows, to the [100000, 32] neighbourhood sum, takes the maximum
  with the zero repeated everywhere, and applies the host's dot_general with the [32, 1] weight. Entry (p, k) of the
  clamped sum is act agg b at (p, k); entry (p, o) of the product is the sum over k of that times the weight at (k, o):
  lin (act agg b) w at (p, o). The neighbourhood sum agg (a gather, a scaling and a scatter-add over the edge list)
  stays the one function of the arguments the reference's own stages name it; it is never opened here.
-/
import proofs.«156434_j44865228374583_1_alg».proof.Proof.Gen.ReferenceIdeal.Read
import proofs.«156434_j44865228374583_1_alg».proof.Proof.Dense
import Idealize.ShloMosaic.Lib.ValueIdx
import Idealize.ShloMosaic.PureOps.Ideal.Laws

noncomputable section

open scoped BigOperators
open Idealize.ShloMosaic Idealize.ShloMosaic.TcCoe Idealize.ShloMosaic.ValueIdx Idealize.SL.Sem

namespace Cert.ReferenceIdeal.Layer3

open Cert.ReferenceIdeal Cert.ReferenceIdeal.Read Cert.Dense

/-- The host's product of the clamped, biased neighbourhood sum with the weight is lin (act agg b) w. -/
theorem layer
    (x0 : (⟨S100000x128, .f32⟩ : BufTy).Contents (Elt Ideal)) (x1 : (⟨S2x3200000, .i32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x32, .f32⟩ : BufTy).Contents (Elt Ideal))
    (x7 : (⟨S32, .f32⟩ : BufTy).Contents (Elt Ideal)) (x8 : (⟨S32x1, .f32⟩ : BufTy).Contents (Elt Ideal)) :
    val_main_v81 (F := Ideal) x0 x1 x2 x3 x4 x5 x6 x7 x8
      = lin (M := 100000) (K := 32) (N := 1) (act (M := 100000) (K := 32) (val_main_v76 (F := Ideal) x0 x1 x2 x3 x4 x5 x6) x7) x8 := by
  funext i
  obtain ⟨p, o, rfl⟩ : ∃ (p : Fin 100000) (o : Fin 1), i = ix2 p o := ⟨i 0, i 1, eq_ix2 i⟩
  rw [val_main_v81_apply, lin_apply]
  refine Finset.sum_congr rfl fun k _ => ?_
  have el : lidx_main_v81 (ix2 p o) k = ix2 p k := funext fun a => Fin.ext (by match a with | ⟨0, _⟩ => rfl | ⟨1, _⟩ => rfl)
  have er : ridx_main_v81 (ix2 p o) k = ix2 k o := funext fun a => Fin.ext (by match a with | ⟨0, _⟩ => rfl | ⟨1, _⟩ => rfl)
  have eb : idx_main_v77 (idx_main_v78 (ix2 p k)) = ix1 k := funext fun a => Fin.ext (by match a with | ⟨0, _⟩ => rfl)
  rw [el, er, val_main_v80_apply, val_main_v79_apply, val_main_v78_apply, val_main_v77_apply, eb,
    val_main_call2_v0_apply, val_main_call2_cst_apply, act_apply]
  rfl

end Cert.ReferenceIdeal.Layer3

end
-- ==== Proof.Chain.lean ====
/-
  The kernel program's result, read back through its nine segments, is the reference's function of the arguments.

  Both programs start with the same host stretch: the two edge lists with the self loops appended, the degrees by a
  scatter-add of ones, their inverse square roots, and the product of those at an edge's two ends. Both then run the
  same neighbourhood sum three times (gather the rows at the edges' sources, scale each by its edge weight, scatter-add
  into the edges' targets), each time on the output of a dense step, and end by adding the last bias. The two differ
  only in the dense steps: the kernel computes each in a pallas_call, row band by row band, the reference with the
  host's whole-array product. Each dense step is lin or lin ∘ act on both sides, so, stage by stage from the first
  stretch to the last, every live buffer of the kernel program holds what the reference's stage of the same name is:
  by the call's array lemma and the layer lemma at a call, by reading the stretch's operations off at a stretch (the
  shared chain is matched operation for operation and never opened), and by the segments' write sets for everything
  carried along (the edge lists, the weights, the arguments not yet used).
-/
import proofs.«156434_j44865228374583_1_alg».proof.Proof.Keep
import proofs.«156434_j44865228374583_1_alg».proof.Proof.Region0
import proofs.«156434_j44865228374583_1_alg».proof.Proof.Region1
import proofs.«156434_j44865228374583_1_alg».proof.Proof.Region2
import proofs.«156434_j44865228374583_1_alg».proof.Proof.Region3
import proofs.«156434_j44865228374583_1_alg».proof.Proof.RefLayer0
import proofs.«156434_j44865228374583_1_alg».proof.Proof.RefLayer1
import proofs.«156434_j44865228374583_1_alg».proof.Proof.RefLayer2
import proofs.«156434_j44865228374583_1_alg».proof.Proof.RefLayer3
import Idealize.ShloMosaic.Lib.StableHlo.Run

set_option maxRecDepth 16384

noncomputable section

open Idealize.ShloMosaic Idealize.ShloMosaic.TcCoe Idealize.SL.Sem Idealize.ShloMosaic.StableHlo

namespace Cert.Bridge

open Cert.KernelIdeal Cert.KernelIdeal.Gen Cert.KernelIdeal.Fold Cert.Dense
open Cert.ReferenceIdeal.Read (val_main_v3 val_main_v6 val_main_v26 val_main_v27 val_main_v40 val_main_v45 val_main_v58
  val_main_v63 val_main_v76 val_main_v81 val_main_v84)

theorem lin_congr {M K N : ℕ} {a a' : FVec Ideal ⟨2, ![M, K]⟩ .f32} {w w' : FVec Ideal ⟨2, ![K, N]⟩ .f32}
    (ha : a = a') (hw : w = w') : lin a w = lin a' w' := by rw [ha, hw]
theorem act_congr {M K : ℕ} {a a' : FVec Ideal ⟨2, ![M, K]⟩ .f32} {b b' : FVec Ideal ⟨1, ![K]⟩ .f32}
    (ha : a = a') (hb : b = b') : act a b = act a' b' := by rw [ha, hb]

variable (m : (ℓ : Loc nD τ sig) → Buf (Elt Ideal) ℓ) (ρ : Dev nD → PrngReg) (c : Dev nD)

/-- The argument arrays as launched. -/
abbrev a0 : Buf (Elt Ideal) ((c : Thread nD τ).loc main_arg0) := m ((c : Thread nD τ).loc main_arg0)
abbrev a1 : Buf (Elt Ideal) ((c : Thread nD τ).loc main_arg1) := m ((c : Thread nD τ).loc main_arg1)
abbrev a2 : Buf (Elt Ideal) ((c : Thread nD τ).loc main_arg2) := m ((c : Thread nD τ).loc main_arg2)
abbrev a3 : Buf (Elt Ideal) ((c : Thread nD τ).loc main_arg3) := m ((c : Thread nD τ).loc main_arg3)
abbrev a4 : Buf (Elt Ideal) ((c : Thread nD τ).loc main_arg4) := m ((c : Thread nD τ).loc main_arg4)
abbrev a5 : Buf (Elt Ideal) ((c : Thread nD τ).loc main_arg5) := m ((c : Thread nD τ).loc main_arg5)
abbrev a6 : Buf (Elt Ideal) ((c : Thread nD τ).loc main_arg6) := m ((c : Thread nD τ).loc main_arg6)
abbrev a7 : Buf (Elt Ideal) ((c : Thread nD τ).loc main_arg7) := m ((c : Thread nD τ).loc main_arg7)
abbrev a8 : Buf (Elt Ideal) ((c : Thread nD τ).loc main_arg8) := m ((c : Thread nD τ).loc main_arg8)
abbrev a9 : Buf (Elt Ideal) ((c : Thread nD τ).loc main_arg9) := m ((c : Thread nD τ).loc main_arg9)

/-! ## The first stretch: the edge lists and the edge weights -/

/-- The sources with the self loops appended. -/
theorem src_eq : W1 m ρ c (Proc.devRef .tc main_v5) = val_main_v3 (F := Ideal) (a1 m c) := by
  show StableHlo.after hostOps0 (W0 m ρ c) (Proc.devRef .tc main_v5) = _
  after_results
  rfl
/-- The targets with the self loops appended. -/
theorem dst_eq : W1 m ρ c (Proc.devRef .tc main_v6) = val_main_v6 (F := Ideal) (a1 m c) := by
  show StableHlo.after hostOps0 (W0 m ρ c) (Proc.devRef .tc main_v6) = _
  after_results
  rfl
set_option maxHeartbeats 8000000 in
/-- The edge weights: the inverse square roots of the degrees at an edge's two ends, multiplied. -/
theorem nrm_eq : W1 m ρ c (Proc.devRef .tc main_v26) = val_main_v26 (F := Ideal) (a1 m c) := by
  show StableHlo.after hostOps0 (W0 m ρ c) (Proc.devRef .tc main_v26) = _
  after_results
  rfl

/-! ## The first layer -/

/-- After the first call: the features times the first weight. -/
theorem h1_eq : W2 m ρ c (Proc.devRef .tc main_v27) = val_main_v27 (F := Ideal) (a0 m c) (a2 m c) := by
  refine (W2_arr m ρ c 2).trans ?_
  refine (Cert.KernelIdeal.Region0.arr (V1 m ρ) c).trans ?_
  rw [Cert.ReferenceIdeal.Layer0.layer]
  exact lin_congr (keep1 m ρ c main_arg0 (by decide)) (keep1 m ρ c main_arg2 (by decide))

set_option maxHeartbeats 2000000 in
/-- After the second stretch: the first neighbourhood sum. -/
theorem agg1_eq : W3 m ρ c (Proc.devRef .tc main_v40) = val_main_v40 (F := Ideal) (a0 m c) (a1 m c) (a2 m c) := by
  show StableHlo.after hostOps1 (W2 m ρ c) (Proc.devRef .tc main_v40) = _
  after_results_simp
  rw [h1_eq m ρ c, keep2 m ρ c main_v5 (by decide), keep2 m ρ c main_v6 (by decide), keep2 m ρ c main_v26 (by decide),
    src_eq m ρ c, dst_eq m ρ c, nrm_eq m ρ c]
  rfl

/-! ## The second layer -/

/-- After the second call: the clamped, biased first sum times the second weight. -/
theorem h2_eq : W4 m ρ c (Proc.devRef .tc main_v41) = val_main_v45 (F := Ideal) (a0 m c) (a1 m c) (a2 m c) (a3 m c) (a4 m c) := by
  refine (W4_arr m ρ c 3).trans ?_
  refine (Cert.KernelIdeal.Region1.arr (V3 m ρ) c).trans ?_
  rw [Cert.ReferenceIdeal.Layer1.layer]
  exact lin_congr (act_congr (agg1_eq m ρ c) ((back3 m ρ c main_arg3 (by decide) (by decide)).trans (keep1 m ρ c main_arg3 (by decide))))
    ((back3 m ρ c main_arg4 (by decide) (by decide)).trans (keep1 m ρ c main_arg4 (by decide)))

set_option maxHeartbeats 2000000 in
/-- After the third stretch: the second neighbourhood sum. -/
theorem agg2_eq : W5 m ρ c (Proc.devRef .tc main_v54) = val_main_v58 (F := Ideal) (a0 m c) (a1 m c) (a2 m c) (a3 m c) (a4 m c) := by
  show StableHlo.after hostOps2 (W4 m ρ c) (Proc.devRef .tc main_v54) = _
  after_results_simp
  rw [h2_eq m ρ c, back4 m ρ c main_v5 (by decide) (by decide) (by decide), back4 m ρ c main_v6 (by decide) (by decide) (by decide),
    back4 m ρ c main_v26 (by decide) (by decide) (by decide), src_eq m ρ c, dst_eq m ρ c, nrm_eq m ρ c]
  rfl

/-! ## The third layer -/

/-- After the third call: the clamped, biased second sum times the third weight. -/
theorem h3_eq : W6 m ρ c (Proc.devRef .tc main_v55) = val_main_v63 (F := Ideal) (a0 m c) (a1 m c) (a2 m c) (a3 m c) (a4 m c) (a5 m c) (a6 m c) := by
  refine (W6_arr m ρ c 3).trans ?_
  refine (Cert.KernelIdeal.Region2.arr (V5 m ρ) c).trans ?_
  rw [Cert.ReferenceIdeal.Layer2.layer]
  exact lin_congr (act_congr (agg2_eq m ρ c) ((back5 m ρ c main_arg5 (by decide) (by decide) (by decide) (by decide)).trans (keep1 m ρ c main_arg5 (by decide))))
    ((back5 m ρ c main_arg6 (by decide) (by decide) (by decide) (by decide)).trans (keep1 m ρ c main_arg6 (by decide)))

set_option maxHeartbeats 2000000 in
/-- After the fourth stretch: the third neighbourhood sum. -/
theorem agg3_eq : W7 m ρ c (Proc.devRef .tc main_v68) = val_main_v76 (F := Ideal) (a0 m c) (a1 m c) (a2 m c) (a3 m c) (a4 m c) (a5 m c) (a6 m c) := by
  show StableHlo.after hostOps3 (W6 m ρ c) (Proc.devRef .tc main_v68) = _
  after_results_simp
  rw [h3_eq m ρ c, back6 m ρ c main_v5 (by decide) (by decide) (by decide) (by decide) (by decide),
    back6 m ρ c main_v6 (by decide) (by decide) (by decide) (by decide) (by decide),
    back6 m ρ c main_v26 (by decide) (by decide) (by decide) (by decide) (by decide), src_eq m ρ c, dst_eq m ρ c, nrm_eq m ρ c]
  rfl

/-! ## The last dense step and the last bias -/

/-- After the fourth call: the clamped, biased third sum times the last weight. -/
theorem h4_eq : W8 m ρ c (Proc.devRef .tc main_v69) = val_main_v81 (F := Ideal) (a0 m c) (a1 m c) (a2 m c) (a3 m c) (a4 m c) (a5 m c) (a6 m c) (a7 m c) (a8 m c) := by
  refine (W8_arr m ρ c 3).trans ?_
  refine (Cert.KernelIdeal.Region3.arr (V7 m ρ) c).trans ?_
  rw [Cert.ReferenceIdeal.Layer3.layer]
  exact lin_congr (act_congr (agg3_eq m ρ c) ((back7 m ρ c main_arg7 (by decide) (by decide) (by decide) (by decide) (by decide) (by decide)).trans (keep1 m ρ c main_arg7 (by decide))))
    ((back7 m ρ c main_arg8 (by decide) (by decide) (by decide) (by decide) (by decide) (by decide)).trans (keep1 m ρ c main_arg8 (by decide)))

/-- The result buffer at the end of the program is the reference's function of the launch contents of the arguments. -/
theorem out_eq : W9 m ρ c (Proc.devRef .tc main_v72) = val_main_v84 (F := Ideal) (a0 m c) (a1 m c) (a2 m c) (a3 m c) (a4 m c) (a5 m c) (a6 m c) (a7 m c) (a8 m c) (a9 m c) := by
  show StableHlo.after hostOps4 (W8 m ρ c) (Proc.devRef .tc main_v72) = _
  after_results
  rw [h4_eq m ρ c, ((back8 m ρ c main_arg9 (by decide) (by decide) (by decide) (by decide) (by decide) (by decide) (by decide)).trans (keep1 m ρ c main_arg9 (by decide)))]
  rfl

end Cert.Bridge

end
-- ==== Proof.lean ====
/-
  A three-layer graph convolution network with a linear head, on 100000 nodes and 3200000 edges plus a self loop per
  node: the kernel program against its reference, over the extended reals.

  Both programs compute, with src and dst the edge lists with the self loops appended, deg the number of edges into each
  node, and nrm e = deg (src e)^(-1/2) · deg (dst e)^(-1/2),

      S h    = the array whose row v is the sum, over the edges e with dst e = v, of nrm e · (row src e of h)
      out    = lin (act (S (lin (act (S (lin (act (S (lin x W1)) b1) W2)) b2) W3)) b3) Wp  +  bp

  where lin a w is the row-by-column product and act a b = max (a + b, 0) (Proof/Dense.lean). The reference evaluates
  this with whole-array host operations. The kernel program evaluates each lin (and the act before it) in a
  pallas_call of 20 grid points, one band of 5000 rows each, and everything else with the same host operations as the
  reference; its narrowing of the matrix operands to bf16 is the identity on the extended reals.

  So the two results are equal because they are the same expression: each call's output array is lin or lin ∘ act of
  the arrays the call was entered with (Proof/Region0.lean … Region3.lean: one band per point, the bands covering the
  array), the reference's host products are the same functions (Proof/RefLayer0.lean … RefLayer3.lean: a host product
  read entry by entry is the same finite sum over the contracted coordinate, in the same order), and the shared host
  operations are matched one for one without being opened (Proof/Chain.lean, over Proof/Keep.lean's account of what each
  segment leaves alone). No step moves a factor across a sum or cancels anything, so nothing depends on the entries being
  finite: the precondition is not used, and an infinite degree weight or an overflowing sum gives the same extended real
  on both sides.

  The three frames: the two kernel programs' are the generated frame certificates; the reference's is its generated
  run with the result dropped. The idealization rewrote nothing, so the claim that it preserves the kernel is trivial.
-/
import proofs.«156434_j44865228374583_1_alg».proof.Defs
import proofs.«156434_j44865228374583_1_alg».proof.Proof.Gen.Kernel
import proofs.«156434_j44865228374583_1_alg».proof.Proof.Gen.Kernel.Frame
import proofs.«156434_j44865228374583_1_alg».proof.Proof.Gen.KernelIdeal
import proofs.«156434_j44865228374583_1_alg».proof.Proof.Gen.KernelIdeal.Frame
import proofs.«156434_j44865228374583_1_alg».proof.Proof.Gen.ReferenceIdeal
import proofs.«156434_j44865228374583_1_alg».proof.Proof.Gen.ReferenceIdeal.Run
import proofs.«156434_j44865228374583_1_alg».proof.Proof.Gen.ReferenceIdeal.Read
import proofs.«156434_j44865228374583_1_alg».proof.Proof.Gen.Pre_finite_inputs
import proofs.«156434_j44865228374583_1_alg».proof.Proof.KernelRun
import proofs.«156434_j44865228374583_1_alg».proof.Proof.Chain
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result array at the reference's function of the kernel program's launch arguments: the
    kernel program by reading its last boundary back (`Cert.Bridge.out_eq`), the reference by its run, its arguments
    being the kernel program's. -/
theorem algebraic : Cert.algebraic_KernelIdeal_ReferenceIdeal := by
  intro m ρ m' ρ' _ hagree
  refine ⟨fun c => Cert.ReferenceIdeal.Read.val_main_v84 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono (fun r h c => ⟨(h c).1.trans (Cert.Bridge.out_eq m ρ c), (h c).2⟩)
      (Cert.KernelIdeal.RunNamed.run_named (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9⟩ := hagree c
    rw [Cert.ReferenceIdeal.Read.val_main_v84_eq m' c, e0, e1, e2, e3, e4, e5, e6, e7, e8, e9]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
